-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16384x128 .f32) (main_arg1 : FVec F S16384x16384 .f32) (main_arg2 : FVec F S128x128 .f32) (main_arg3 : FVec F S128 .f32) (main_arg4 : FVec F S128x64 .f32) (main_arg5 : FVec F S64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1024x2048 : Shape := ⟨2, ![1024, 2048]⟩
abbrev S2048x128 : Shape := ⟨2, ![2048, 128]⟩
abbrev S1024x128 : Shape := ⟨2, ![1024, 128]⟩
abbrev S16384x64 : Shape := ⟨2, ![16384, 64]⟩
abbrev S1x64 : Shape := ⟨2, ![1, 64]⟩
abbrev S2048x64 : Shape := ⟨2, ![2048, 64]⟩
abbrev S1024x64 : Shape := ⟨2, ![1024, 64]⟩

abbrev nBuf : Space → Nat
  | .hbm => 12
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S16384x128, .f32⟩
  | .hbm, ⟨7, _⟩ => ⟨S1x128, .f32⟩
  | .hbm, ⟨8, _⟩ => ⟨S16384x128, .f32⟩
  | .hbm, ⟨9, _⟩ => ⟨S16384x64, .f32⟩
  | .hbm, ⟨10, _⟩ => ⟨S1x64, .f32⟩
  | .hbm, ⟨11, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .f32⟩
  | .local _ .vmem, ⟨9, _⟩ => ⟨S1024x2048, .f32⟩
  | .local _ .vmem, ⟨10, _⟩ => ⟨S2048x64, .f32⟩
  | .local _ .vmem, ⟨11, _⟩ => ⟨S2048x64, .f32⟩
  | .local _ .vmem, ⟨12, _⟩ => ⟨S1x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S16384x128_S128x128_S16384x128_1_0_0_1_n_n_wf : DotDims.WF S16384x128 S128x128 S16384x128 [1] [0] [0] [1] [] []
  dot_S1024x2048_S2048x128_S1024x128_1_0_0_1_n_n_wf : DotDims.WF S1024x2048 S2048x128 S1024x128 [1] [0] [0] [1] [] []
  dot_S16384x128_S128x64_S16384x64_1_0_0_1_n_n_wf : DotDims.WF S16384x128 S128x64 S16384x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S16384x64 : Shape := ⟨2, ![16384, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S16384x128, .f32⟩
  | .hbm, ⟨7, _⟩ => ⟨S16384x128, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S_, .f32⟩
  | .hbm, ⟨12, _⟩ => ⟨S16384x128, .f32⟩
  | .hbm, ⟨13, _⟩ => ⟨S16384x128, .f32⟩
  | .hbm, ⟨14, _⟩ => ⟨S16384x64, .f32⟩
  | .hbm, ⟨15, _⟩ => ⟨S16384x64, .f32⟩
  | .hbm, ⟨16, _⟩ => ⟨S1x64, .f32⟩
  | .hbm, ⟨17, _⟩ => ⟨S16384x64, .f32⟩
  | .hbm, ⟨18, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KI.Body0.lean ====
/-
  Region 0 of the idealized kernel program: one grid point of a graph-convolution call.

  A grid point is a pair (i, k): row block i of the adjacency matrix (1024 rows) against contraction
  block k (2048 columns of the adjacency block, 2048 rows of the projected features). The body keeps a
  running sum in a VMEM scratch: at k = 0 it first stores zeros there, at every k it adds the block
  product to what the scratch holds, and at the last k it applies the layer's output map (pay3: the bias
  row added; in the layer that has an activation, the maximum with zero taken) and stores
  the result block. The three triples below say what each kind of point leaves in the scratch and in
  the result block, over the payload names of the skeleton:
    first point of a row block:  scratch := pay2 a y pay1            (pay1 = zeros)
    a middle point:              scratch := pay2 a y (scratch before)
    the last point:              scratch as a middle point, result := pay3 (scratch after) bias.
-/
import proofs.«102359_j57853209477558_1_alg».proof.Proof.Gen.KernelIdeal.Launch
import proofs.«102359_j57853209477558_1_alg».proof.Proof.Gen.KernelIdeal.Skeleton
import proofs.«102359_j57853209477558_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken: the contraction coordinate is 0. -/
abbrev first0 (i : grid0.Coords) : Prop :=
  (Scalar.cmpi .ne (Scalar.extui (Scalar.cmpi .eq (BitVec.ofNat 32 (i 1).val) 0#32)) 0#32) = 1#1
/-- The body's second branch is taken: the contraction coordinate is the last one. -/
abbrev last0 (i : grid0.Coords) : Prop := k0_cond2 i = 1#1

/-! ## Whole-block loads and stores

Every load and store of the body goes through the rectangle that spans its whole buffer: unit strides, the
buffer's own extents, both offsets zero. Through it a load returns the contents, and a store — whatever was
stored before it — leaves exactly its payload. -/

/-- Both offsets of the whole-block rectangle vanish. -/
private theorem zero_offsets : (![0, 0] : Fin 2 → ℕ) = fun _ => 0 := by
  funext a; fin_cases a <;> rfl

section Whole

variable {κ : Kind} {sp : Space} {S : Shape} {e : EltTy}

/-- Reading a buffer whose most recent store went through the whole-block rectangle gives that store's payload,
    independently of the earlier stores and of the contents before them: every index lies under the last piece. -/
private theorem read_after_whole_store (v : View sig κ sp S e) (g : v.ty.Contents (Elt F)) {off : Fin S.rank → ℕ}
    (h0 : off = fun _ => 0) (inb : ∀ a, off a + S.size a ≤ S.size a) (w : S.Idx → Elt F e)
    (L : List (View.Piece (Elt F) S e)) :
    v.read (Elt F) (v.writes (Elt F) g ((⟨Rect.unit off S.size inb, w⟩ : View.Piece (Elt F) S e) :: L)) = w := by
  have hcover : ∀ y : S.Idx, ∃ p ∈ ((⟨Rect.unit off S.size inb, w⟩ : View.Piece (Elt F) S e) :: L), y ∈ p.1.set :=
    fun y => ⟨_, List.mem_cons_self, View.mem_set_unit_zero h0 inb y⟩
  rw [View.read_writes_eq_canon _ _ _ hcover, View.canon_cons_unit_zero h0]

/-- A whole-block load from a whole memref held at the raw contents that read `X` returns `X`. -/
private theorem load_whole {m : Memref sig κ sp S e} (hm : m.IsWhole) (X : S.Idx → Elt F e) {off : Fin S.rank → ℕ}
    (h0 : off = fun _ => 0) (inb : ∀ a, off a + S.size a ≤ S.size a) :
    View.readAt (Elt F) m.view (Rect.unit off S.size inb).toLoadRect (hm.unread X) = X := by
  rw [View.readAt_eq_ld, hm.read_unread, View.ld_unit_zero h0]

end Whole

/-- First point of a row block (and not the last): the scratch, whatever it held, ends at the block
    product added to zeros; the bias and result buffers are not touched. -/
theorem kernel0_first (c : Dev nD) (i : grid0.Coords)
    (arg2 : Memref sig .tc .vmem S1024x2048 .f32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hf : first0 i) (hl : ¬last0 i)
    (x0 : Vec F S1024x2048 .f32) (x1 : Vec F S2048x128 .f32) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k0_pay2 x0 x1 (k0_pay1 (F := F)))) -∗ K ⟨⟩))
      ⊢ wp frame (wpE (defs₀ (F := F)) Variants.none c none) Set.univ (cc0__gcn_conv_kernel i arg2 harg2 arg3 harg3 arg4 harg4 arg5 harg5 arg6 harg6) K := by
  simp only [cc0__gcn_conv_kernel_eq_skeleton]; unfold cc0__gcn_conv_kernel_skel
  unfold owns
  iintro ⟨⟨%f0, %hf0, H0⟩, ⟨%f1, %hf1, H1⟩, ⟨%d, %fs, -, HS⟩, Hk⟩
  obtain rfl := harg2.eq_unread hf0; obtain rfl := harg3.eq_unread hf1
  -- the first branch is taken, the second is not: the zero store, then the loads and the accumulating store
  sl_exec (disch := first | exact hf | exact hl)
  sl_step
  iapply Hk
  isplitl [H0]
  · iexists _; isplitr
    · ipureintro; exact hf0
    · iexact H0
  isplitl [H1]
  · iexists _; isplitr
    · ipureintro; exact hf1
    · iexact H1
  iexists _; isplitr
  swap
  · iexact HS
  · ipureintro
    -- the accumulating store is the last one, so the scratch reads as its payload; the scratch load inside that
    -- payload came after the zero store and reads the zeros back
    rw [read_after_whole_store _ _ zero_offsets, load_whole harg2 x0 zero_offsets, load_whole harg3 x1 zero_offsets]
    sl_unfold_words
    rw [View.readCov_unit_zero _ zero_offsets]

/-- A middle point: the scratch at `xs` ends at the block product added to `xs`. -/
theorem kernel0_mid (c : Dev nD) (i : grid0.Coords)
    (arg2 : Memref sig .tc .vmem S1024x2048 .f32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hf : ¬first0 i) (hl : ¬last0 i)
    (x0 : Vec F S1024x2048 .f32) (x1 : Vec F S2048x128 .f32) (xs : Vec F S1024x128 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k0_pay2 x0 x1 xs)) -∗ K ⟨⟩))
      ⊢ wp frame (wpE (defs₀ (F := F)) Variants.none c none) Set.univ (cc0__gcn_conv_kernel i arg2 harg2 arg3 harg3 arg4 harg4 arg5 harg5 arg6 harg6) K := by
  simp only [cc0__gcn_conv_kernel_eq_skeleton]; unfold cc0__gcn_conv_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  -- neither branch is taken: three whole-block loads, one whole-block store into the scratch
  sl_exec (disch := first | exact hf | exact hl)
  sl_step
  iapply Hk
  isplitl [H0]
  · iexists _; isplitr
    · ipureintro; exact hf0
    · iexact H0
  isplitl [H1]
  · iexists _; isplitr
    · ipureintro; exact hf1
    · iexact H1
  iexists _; isplitr
  swap
  · iexact HS
  · ipureintro
    -- the store's payload, its three loads read off the contents
    rw [read_after_whole_store _ _ zero_offsets, load_whole harg2 x0 zero_offsets, load_whole harg3 x1 zero_offsets,
      load_whole harg6 xs zero_offsets]

/-- The last point of a row block: the scratch as at a middle point, and the result buffer, whatever it
    held, ends at the layer's output map of the new scratch contents and the bias row. -/
theorem kernel0_last (c : Dev nD) (i : grid0.Coords)
    (arg2 : Memref sig .tc .vmem S1024x2048 .f32) (harg2 : arg2.IsWhole) (arg3 : Memref sig .tc .vmem S2048x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hf : ¬first0 i) (hl : last0 i)
    (x0 : Vec F S1024x2048 .f32) (x1 : Vec F S2048x128 .f32) (x2 : Vec F S1x128 .f32) (xs : Vec F S1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 xs) x2)
            ∗ owns (c : Thread nD τ) arg6 fullShare (k0_pay2 x0 x1 xs)) -∗ K ⟨⟩))
      ⊢ wp frame (wpE (defs₀ (F := F)) Variants.none c none) Set.univ (cc0__gcn_conv_kernel i arg2 harg2 arg3 harg3 arg4 harg4 arg5 harg5 arg6 harg6) K := by
  simp only [cc0__gcn_conv_kernel_eq_skeleton]; unfold cc0__gcn_conv_kernel_skel
  unfold owns
  iintro ⟨⟨%f0, %hf0, H0⟩, ⟨%f1, %hf1, H1⟩, ⟨%f2, %hf2, H2⟩, ⟨%d, %fo, -, HO⟩, ⟨%fs, %hfs, HS⟩, Hk⟩
  obtain rfl := harg2.eq_unread hf0; obtain rfl := harg3.eq_unread hf1
  obtain rfl := harg4.eq_unread hf2; obtain rfl := harg6.eq_unread hfs
  -- the first branch is not taken, the second is: the accumulating store, then the loads of the new scratch
  -- contents and of the bias, and the store of the result block
  sl_exec (disch := first | exact hf | exact hl)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [HO]
  · iexists _; isplitr
    swap
    · iexact HO
    · ipureintro
      -- the result buffer reads as the one store's payload; the scratch load inside it reads back what the
      -- accumulating store just left, whose own loads read the contents
      rw [read_after_whole_store _ _ zero_offsets, load_whole harg4 x2 zero_offsets]
      sl_unfold_words
      rw [View.readCov_unit_zero _ zero_offsets, load_whole harg2 x0 zero_offsets, load_whole harg3 x1 zero_offsets,
        load_whole harg6 xs zero_offsets]
  iexists _; isplitr
  swap
  · iexact HS
  · ipureintro
    -- the scratch as at a middle point
    sl_unfold_words
    rw [read_after_whole_store _ _ zero_offsets, load_whole harg2 x0 zero_offsets, load_whole harg3 x1 zero_offsets,
      load_whole harg6 xs zero_offsets]

end Cert.KernelIdeal.Layer

end
-- ==== Proof.KI.Rest0.lean ====
/-
  Region 0: the scoped buffers the region's body may use beside its staging buffers. They are the region's own
  scratch accumulator and the other region's staging buffers and scratch; the class invariant holds each at some
  contents, beside the generator register at some state. The two lemmas split the accumulator off that
  invariant and put it back.
-/
import proofs.«102359_j57853209477558_1_alg».proof.Proof.Gen.KernelIdeal.Launch
import Idealize.ShloMosaic.Lib.Pipeline.Frame
import Idealize.ShloMosaic.Lib.Pipeline.FrameBody
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch accumulator as a memref. -/
abbrev scM0 : Memref sig .tc .vmem S1024x128 .f32 := Memref.whole cc0_scratch0

/-- The core's scoped buffers other than this region's staging buffers and scratch (the other region's), each at
    some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant yields the accumulator at some contents, the other scoped buffers and the generator register. -/
theorem PhiA0_open (c : Dev nD) :
    (Pipeline.ΦA spec0 c : sProp 𝕄) ⊢ iprop((∃ d, owns (c : Thread nD τ) scM0 fullShare d) ∗ others0 (F := F) c ∗ (∃ r, prngReg c r)) := by
  unfold Pipeline.ΦA; rw [scopedRest0_eq]; unfold others0
  simp only [scM0, owns_whole]
  iintro ⟨⟨⟨%f, HS⟩, Ho⟩, Hg⟩
  isplitl [HS]; · iexists f; iexact HS
  isplitl [Ho]; · iexact Ho
  iexact Hg

/-- And takes them back. -/
theorem PhiA0_close (c : Dev nD) :
    (iprop((∃ d, owns (c : Thread nD τ) scM0 fullShare d) ∗ others0 (F := F) c ∗ (∃ r, prngReg c r)) : sProp 𝕄) ⊢ Pipeline.ΦA spec0 c := by
  unfold Pipeline.ΦA; rw [scopedRest0_eq]; unfold others0
  simp only [scM0, owns_whole]
  iintro ⟨⟨%f, HS⟩, Ho, Hg⟩
  isplitr [Hg]
  · isplitl [HS]; · iexists f; iexact HS
    iexact Ho
  iexact Hg

end Cert.KernelIdeal.Layer

end
-- ==== Proof.KI.Dat0.lean ====
/-
  Region 0 of the idealized kernel program: what the accumulator and the result block hold point by point,
  and the pipeline's proof data.

  The grid has 16 x 8 points, point t = 8 i + k being row block i at contraction block k. With a_t, y_t, b_t
  the blocks of the adjacency matrix, of the projected features and of the bias row that point t reads off the
  arrays as the region finds them:
    acc t = pay2 a_t y_t zeros          when k = 0   (the running sum starts again at every row block)
    acc t = pay2 a_t y_t (acc (t - 1))  otherwise
    out t = pay3 (acc t) b_t            (stored, and written back, only where k = 7).
  The region invariant before point t > 0 holds the scratch at acc (t - 1); before the first point, and once
  the region is over, the scratch is at anything.
-/
import proofs.«102359_j57853209477558_1_alg».proof.Proof.KI.Body0
import proofs.«102359_j57853209477558_1_alg».proof.Proof.KI.Rest0

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks a point reads -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block, the feature block and the bias row of point `t`, at their literal shapes. -/
abbrev ablk0 (c : Dev nD) (t : Fin cfg0.N) : Vec F S1024x2048 .f32 := iblk0 V c 0 t
abbrev yblk0 (c : Dev nD) (t : Fin cfg0.N) : Vec F S2048x128 .f32 := iblk0 V c 1 t
abbrev bblk0 (c : Dev nD) (t : Fin cfg0.N) : Vec F S1x128 .f32 := iblk0 V c 2 t

/-! ## The accumulator and the result block, point by point -/

/-- What the scratch holds after the body at point `n`. -/
def acc0 (c : Dev nD) : (n : ℕ) → n < cfg0.N → Vec F S1024x128 .f32
  | 0, hn => k0_pay2 (ablk0 V c ⟨0, hn⟩) (yblk0 V c ⟨0, hn⟩) (k0_pay1 (F := F))
  | n + 1, hn =>
    if (n + 1) % 8 = 0 then k0_pay2 (ablk0 V c ⟨n + 1, hn⟩) (yblk0 V c ⟨n + 1, hn⟩) (k0_pay1 (F := F))
    else k0_pay2 (ablk0 V c ⟨n + 1, hn⟩) (yblk0 V c ⟨n + 1, hn⟩) (acc0 c n (Nat.lt_of_succ_lt hn))

/-- At the first point of a row block the running sum starts from zeros. -/
theorem acc0_first (c : Dev nD) (t : Fin cfg0.N) (h : t.val % 8 = 0) :
    acc0 V c t.val t.isLt = k0_pay2 (ablk0 V c t) (yblk0 V c t) (k0_pay1 (F := F)) := by
  obtain ⟨n, hn⟩ := t
  cases n with
  | zero => rfl
  | succ n => exact if_pos h

/-- At any other point it continues from what the point before left. -/
theorem acc0_next (c : Dev nD) (t : Fin cfg0.N) (h : ¬t.val % 8 = 0) :
    acc0 V c t.val t.isLt = k0_pay2 (ablk0 V c t) (yblk0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-- What the result block's staging buffer holds after the body at a point that stores it. -/
def out0 (c : Dev nD) (t : Fin cfg0.N) : Vec F S1024x128 .f32 := k0_pay3 (acc0 V c t.val t.isLt) (bblk0 V c t)

/-! ## The region invariant -/

/-- The invariant before position `n`: before the first point the scoped rest at anything and the generator register
    at some state; afterwards the same with the scratch at what the point before left. -/
def Phi0 (c : Dev nD) : (n : ℕ) → n ≤ cfg0.N → sProp 𝕄
  | 0, _ => Pipeline.ΦA spec0 c
  | n + 1, hn => iprop(owns (c : Thread nD τ) scM0 fullShare (acc0 V c n hn) ∗ others0 (F := F) c ∗ (∃ r, prngReg c r))

/-! ## The pipeline's proof data -/

/-- The proof data of region 0's pipeline on core `c`: the arrays as the region finds them; after the body each
    input's buffer at its block and the result's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-! ## The invariant, position by position -/

theorem Phi0_zero (c : Dev nD) (n : ℕ) (h : n ≤ cfg0.N) (hz : n = 0) : Phi0 V c n h = Pipeline.ΦA spec0 c := by
  subst hz; rfl

/-- After point `n`: the scratch at that point's running sum. -/
theorem Phi0_succ (c : Dev nD) (n : ℕ) (hn : n < cfg0.N) :
    Phi0 V c (n + 1) hn = iprop(owns (c : Thread nD τ) scM0 fullShare (acc0 V c n hn) ∗ others0 (F := F) c ∗ (∃ r, prngReg c r)) := rfl

/-- Before a point that is not the first: the scratch at what the point before left. -/
theorem Phi0_pos (c : Dev nD) (n : ℕ) (h : n ≤ cfg0.N) (hz : n ≠ 0) :
    Phi0 V c n h = iprop(owns (c : Thread nD τ) scM0 fullShare (acc0 V c (n - 1) (by omega)) ∗ others0 (F := F) c ∗ (∃ r, prngReg c r)) := by
  cases n with
  | zero => exact absurd rfl hz
  | succ n => rfl

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-! ## The two conditions in closed form, and where the result window is idle -/

/-- The first branch is taken exactly where the contraction coordinate is 0. -/
theorem hfirst0 : ∀ t : Fin cfg0.N, first0 (grid0.coords t) ↔ t.val % 8 = 0 :=
  (by decide +kernel : ∀ t : Fin grid0.N, first0 (grid0.coords t) ↔ t.val % 8 = 0)

/-- The second exactly where it is the last one. -/
theorem hlast0 : ∀ t : Fin cfg0.N, last0 (grid0.coords t) ↔ t.val % 8 = 7 :=
  (by decide +kernel : ∀ t : Fin grid0.N, last0 (grid0.coords t) ↔ t.val % 8 = 7)

/-- The three inputs are never idle. -/
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl

/-- Off the last contraction block the result window is idle, -/
theorem idle0_3 : ∀ t : Fin cfg0.N, ¬last0 (grid0.coords t) → cfg0.idle 3 (grid0.coords t) = true := by decide +kernel
/-- and its block is not written back there; -/
theorem noFlush0_3 (t : Fin cfg0.N) (h : ¬t.val % 8 = 7) : (cfg0.win 3).flush t = false :=
  Bool.eq_false_iff.mpr fun hf => h ((flush0_3 t).mp hf)
/-- at the last contraction block it is live. -/
theorem live0_3 : ∀ t : Fin cfg0.N, last0 (grid0.coords t) → cfg0.idle 3 (grid0.coords t) = false := by decide +kernel

/-! ## What the body finds in the inputs' buffers -/

/-- Each input's current buffer holds its block at every point, fetched there or not: an input not fetched at a
    point has the block index of the point before, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body obligation, at a generic point -/

/-- Each window's current staging memref at point `t`, at its literal shape. -/
abbrev ms0_0 (t : Fin cfg0.N) : Memref sig .tc .vmem S1024x2048 .f32 := win0_0.stage (cfg0.slots t 0)
abbrev ms0_1 (t : Fin cfg0.N) : Memref sig .tc .vmem S2048x128 .f32 := win0_1.stage (cfg0.slots t 1)
abbrev ms0_2 (t : Fin cfg0.N) : Memref sig .tc .vmem S1x128 .f32 := win0_2.stage (cfg0.slots t 2)
abbrev ms0_3 (t : Fin cfg0.N) : Memref sig .tc .vmem S1024x128 .f32 := win0_3.stage (cfg0.slots t 3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The three inputs' buffers hold their blocks; the closed forms say which of the three
    kinds of point it is. At the first point of a row block the invariant hands the scratch over at anything and
    takes it back at the block product added to zeros; elsewhere it hands it over at the running sum of the point
    before and takes it back with this point's product added. Off the last contraction block the result window is
    idle and its buffer goes back as found; at the last one it ends at the layer's output map of the running sum
    and the bias row. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 128 := lt_of_lt_of_eq t.isLt (show cfg0.N = 128 from N_0)
  by_cases h0 : t.val % 8 = 0
  · -- the first point of a row block
    have hf : first0 (grid0.coords t) := (hfirst0 t).mpr h0
    have h7 : ¬t.val % 8 = 7 := by omega
    have hl : ¬last0 (grid0.coords t) := fun h => h7 ((hlast0 t).mp h)
    rw [Dat.leavesExact_idle (dat0 V c) 3 t (idle0_3 t hl) (noFlush0_3 t h7)]
    rw [acc0_first V c t h0]
    by_cases hz : t.val = 0
    · rw [Phi0_castSucc V c t, Phi0_zero V c _ _ hz]
      iintro ⟨HP, Ho, ⟨%d0, H0⟩, ⟨%d1, H1⟩, ⟨%d2, H2⟩, ⟨%d3, H3⟩⟩
      icases (PhiA0_open (F := F) c) $$ HP with ⟨HS, Hr, Hg⟩
      iapply (kernel0_first c (grid0.coords t) _ _ _ _ _ _ _ _ scM0 (Memref.isWhole_whole _) hf hl (ablk0 V c t) (yblk0 V c t) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨HS, Hr, Hg⟩, Ho, ⟨%d0, H0⟩, ⟨%d1, H1⟩, ⟨%d2, H2⟩, ⟨%d3, H3⟩⟩
      iapply (kernel0_first c (grid0.coords t) _ _ _ _ _ _ _ _ scM0 (Memref.isWhole_whole _) hf hl (ablk0 V c t) (yblk0 V c t) _)
      isplitl [H0]; · iexact H0
      isplitl [H1]; · iexact H1
      isplitl [HS]; · iexists _; iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3
  · have hf : ¬first0 (grid0.coords t) := fun h => h0 ((hfirst0 t).mp h)
    have hz : t.val ≠ 0 := fun e => h0 (by rw [e])
    rw [acc0_next V c t h0]
    rw [Phi0_castSucc V c t, Phi0_pos V c _ _ hz]
    by_cases h7 : t.val % 8 = 7
    · -- the last point of a row block
      have hl : last0 (grid0.coords t) := (hlast0 t).mpr h7
      rw [show (dat0 V c).leavesExact 3 t = owns (c : Thread nD τ) (ms0_3 t) fullShare ((dat0 V c).after 3 t) from by
        unfold Dat.leavesExact; rw [live0_3 t hl], after0_3]
      unfold out0
      rw [acc0_next V c t h0]
      iintro ⟨⟨HS, Hr, Hg⟩, Ho, ⟨%d0, H0⟩, ⟨%d1, H1⟩, ⟨%d2, H2⟩, ⟨%d3, H3⟩⟩
      iapply (kernel0_last c (grid0.coords t) _ _ _ _ _ _ _ _ scM0 (Memref.isWhole_whole _) hf hl (ablk0 V c t) (yblk0 V c t) (bblk0 V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · -- a middle point
      have hl : ¬last0 (grid0.coords t) := fun h => h7 ((hlast0 t).mp h)
      rw [Dat.leavesExact_idle (dat0 V c) 3 t (idle0_3 t hl) (noFlush0_3 t h7)]
      iintro ⟨⟨HS, Hr, Hg⟩, Ho, ⟨%d0, H0⟩, ⟨%d1, H1⟩, ⟨%d2, H2⟩, ⟨%d3, H3⟩⟩
      iapply (kernel0_mid c (grid0.coords t) _ _ _ _ _ _ _ _ scM0 (Memref.isWhole_whole _) hf hl (ablk0 V c t) (yblk0 V c t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-! ## The body obligation and the invariant's two ends -/

/-- The library's body obligation, at every point. -/
theorem body_obligation0 (c : Dev nD) : BodyObligation (dat0 (F := F) V c) (defs₀ (F := F)) Variants.none () Set.univ := by
  intro t
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point the invariant gives the scoped rest back: the running sum in the scratch is forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht]
  iintro ⟨HS, Ho, Hg⟩
  iapply (PhiA0_close c)
  isplitl [HS]
  · iexists _; iexact HS
  isplitl [Ho]
  · iexact Ho
  iexact Hg

/-- After the last point the invariant gives the scoped rest back, the scratch's contents forgotten. -/
theorem hout0 (c : Dev nD) : (dat0 V c).Φ (Fin.last cfg0.N) ⊢ Pipeline.ΦA spec0 c :=
  Phi0_out V c _ (by rw [Fin.val_last]; have : cfg0.N = 128 := N_0; omega)

end Cert.KernelIdeal.Layer

end
-- ==== Proof.KI.Rest1.lean ====
/-
  Region 1: the scoped buffers the region's body may use beside its staging buffers. They are the other region's
  staging buffers and scratch and the region's own scratch accumulator; the class invariant holds each at some
  contents, beside the generator register at some state. The two lemmas split the accumulator off that
  invariant and put it back.
-/
import proofs.«102359_j57853209477558_1_alg».proof.Proof.Gen.KernelIdeal.Launch
import Idealize.ShloMosaic.Lib.Pipeline.Frame
import Idealize.ShloMosaic.Lib.Pipeline.FrameBody
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch accumulator as a memref. -/
abbrev scM1 : Memref sig .tc .vmem S1024x64 .f32 := Memref.whole cc1_scratch0

/-- The core's scoped buffers other than this region's staging buffers and scratch (the other region's), each at
    some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant yields the accumulator at some contents, the other scoped buffers and the generator register. -/
theorem PhiA1_open (c : Dev nD) :
    (Pipeline.ΦA spec1 c : sProp 𝕄) ⊢ iprop((∃ d, owns (c : Thread nD τ) scM1 fullShare d) ∗ others1 (F := F) c ∗ (∃ r, prngReg c r)) := by
  unfold Pipeline.ΦA; rw [scopedRest1_eq]; unfold others1
  simp only [scM1, owns_whole]
  iintro ⟨⟨H1, H2, H3, H4, H5, H6, H7, H8, ⟨%f, HS⟩⟩, Hg⟩
  isplitl [HS]; · iexists f; iexact HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And takes them back. -/
theorem PhiA1_close (c : Dev nD) :
    (iprop((∃ d, owns (c : Thread nD τ) scM1 fullShare d) ∗ others1 (F := F) c ∗ (∃ r, prngReg c r)) : sProp 𝕄) ⊢ Pipeline.ΦA spec1 c := by
  unfold Pipeline.ΦA; rw [scopedRest1_eq]; unfold others1
  simp only [scM1, owns_whole]
  iintro ⟨⟨%f, HS⟩, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists f; iexact HS
  iexact Hg

end Cert.KernelIdeal.Layer

end
-- ==== Proof.KI.Run.lean ====
/-
  The run of the idealized kernel program: @main is a host stretch, region 0, a host stretch, region 1.

  The contents of the TensorCore's unscoped buffers at the four boundaries are a fold from the launch memory:
  W1 after the first host stretch (the projected features and the bias row of layer one), W2 after region 0 (its
  result array at what its write-backs leave, every other buffer as before), W3 after the second host stretch, W4
  after region 1. Every weakly fair execution terminates with every unscoped buffer at W4; the argument arrays are
  written by no item, so W4 has them as launched, and the program's result is region 1's result array.
-/
import proofs.«102359_j57853209477558_1_alg».proof.Proof.KI.Dat0
import proofs.«102359_j57853209477558_1_alg».proof.Proof.KI.Dat1
import Idealize.ShloMosaic.Lib.Pipeline.RegionsLoop
import Idealize.ShloMosaic.Lib.Pipeline.FrameSuffix

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N

/-! ## Reading the boundaries' contents -/

/-- At region 0's exit an array of the region holds what the pipeline leaves in it, -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- and a buffer that is no array of the region what it held at entry. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The same two readings at region 1's exit. -/
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The first host stretch writes the projected features and the bias row of layer one and nothing else: any other
    buffer keeps its contents across it. -/
theorem keeps0 (W : Valuation τ sig (Elt F)) (b : Ref sig .tc) (h0 : b ≠ main_v0) (h1 : b ≠ main_v1) :
    StableHlo.after hostOps0 W (Proc.devRef .tc b) = W (Proc.devRef .tc b) := by
  refine StableHlo.after_of_forall_not_mem (b := Proc.devRef .tc b) _ _ fun op hop => ?_
  simp only [hostOps0, List.mem_cons, List.mem_nil_iff, or_false] at hop
  rcases hop with rfl | rfl
  · rw [StableHlo.binary_writes, Finset.mem_singleton]; exact StableHlo.devRef_ne_of_ne h0
  · rw [StableHlo.reshape_writes, Finset.mem_singleton]; exact StableHlo.devRef_ne_of_ne h1

/-- The second writes those of layer two and nothing else. -/
theorem keeps1 (W : Valuation τ sig (Elt F)) (b : Ref sig .tc) (h3 : b ≠ main_v3) (h4 : b ≠ main_v4) :
    StableHlo.after hostOps1 W (Proc.devRef .tc b) = W (Proc.devRef .tc b) := by
  refine StableHlo.after_of_forall_not_mem (b := Proc.devRef .tc b) _ _ fun op hop => ?_
  simp only [hostOps1, List.mem_cons, List.mem_nil_iff, or_false] at hop
  rcases hop with rfl | rfl
  · rw [StableHlo.binary_writes, Finset.mem_singleton]; exact StableHlo.devRef_ne_of_ne h3
  · rw [StableHlo.reshape_writes, Finset.mem_singleton]; exact StableHlo.devRef_ne_of_ne h4

/-- A buffer that is no array of either region and that neither host stretch writes ends as launched: the fold
    walks back through the four boundaries. -/
theorem W4_of_bypass (c : Dev nD) (b : Ref sig .tc) (hr1 : ∀ w, Pipeline.arrRef spec1 w ≠ b) (hr0 : ∀ w, Pipeline.arrRef spec0 w ≠ b)
    (h0 : b ≠ main_v0) (h1 : b ≠ main_v1) (h3 : b ≠ main_v3) (h4 : b ≠ main_v4) :
    W4 m c (Proc.devRef .tc b) = m ((c : Thread nD τ).loc b) :=
  calc W4 m c (Proc.devRef .tc b)
    _ = W3 m c (Proc.devRef .tc b) := W4_of_ne m c b hr1
    _ = W2 m c (Proc.devRef .tc b) := keeps1 _ b h3 h4
    _ = W1 m c (Proc.devRef .tc b) := W2_of_ne m c b hr0
    _ = W0 m c (Proc.devRef .tc b) := keeps0 _ b h0 h1
    _ = m ((c : Thread nD τ).loc b) := rfl

/-- Region 0's result array at its exit is what its write-backs leave. -/
theorem W2_main_v2 (c : Dev nD) : W2 m c (Proc.devRef .tc main_v2) = (dat0 (V1 m) c).arrAt 3 cfg0.N :=
  W2_arr m c 3

/-- The program's result at the end is what region 1's write-backs leave. -/
theorem W4_main_v5 (c : Dev nD) : W4 m c (Proc.devRef .tc main_v5) = (dat1 (V3 m) c).arrAt 3 cfg1.N :=
  W4_arr m c 3

/-- No item writes an argument array: the last valuation has each as launched. -/
theorem W4_main_arg0 (c : Dev nD) : W4 m c (Proc.devRef .tc main_arg0) = m ((c : Thread nD τ).loc main_arg0) :=
  W4_of_bypass m c main_arg0 (by decide) (by decide) (by decide) (by decide) (by decide) (by decide)
theorem W4_main_arg1 (c : Dev nD) : W4 m c (Proc.devRef .tc main_arg1) = m ((c : Thread nD τ).loc main_arg1) :=
  -- the adjacency matrix is input window 0 of both regions: an input's array is never written back
  calc W4 m c (Proc.devRef .tc main_arg1)
    _ = W3 m c (Proc.devRef .tc main_arg1) :=
        (W4_arr m c 0).trans (((dat1 (V3 m) c).arrAt_in 0 rfl _).trans (A_eq1 (V3 m) c 0))
    _ = W2 m c (Proc.devRef .tc main_arg1) := keeps1 _ main_arg1 (by decide) (by decide)
    _ = W1 m c (Proc.devRef .tc main_arg1) :=
        (W2_arr m c 0).trans (((dat0 (V1 m) c).arrAt_in 0 rfl _).trans (A_eq0 (V1 m) c 0))
    _ = W0 m c (Proc.devRef .tc main_arg1) := keeps0 _ main_arg1 (by decide) (by decide)
    _ = m ((c : Thread nD τ).loc main_arg1) := rfl
theorem W4_main_arg2 (c : Dev nD) : W4 m c (Proc.devRef .tc main_arg2) = m ((c : Thread nD τ).loc main_arg2) :=
  W4_of_bypass m c main_arg2 (by decide) (by decide) (by decide) (by decide) (by decide) (by decide)
theorem W4_main_arg3 (c : Dev nD) : W4 m c (Proc.devRef .tc main_arg3) = m ((c : Thread nD τ).loc main_arg3) :=
  W4_of_bypass m c main_arg3 (by decide) (by decide) (by decide) (by decide) (by decide) (by decide)
theorem W4_main_arg4 (c : Dev nD) : W4 m c (Proc.devRef .tc main_arg4) = m ((c : Thread nD τ).loc main_arg4) :=
  W4_of_bypass m c main_arg4 (by decide) (by decide) (by decide) (by decide) (by decide) (by decide)
theorem W4_main_arg5 (c : Dev nD) : W4 m c (Proc.devRef .tc main_arg5) = m ((c : Thread nD τ).loc main_arg5) :=
  W4_of_bypass m c main_arg5 (by decide) (by decide) (by decide) (by decide) (by decide) (by decide)

/-! ## The run -/

/-! ## The two pipelines' proof data and the thread state between the items -/

/-- No pipeline has a prefetched table. -/
abbrev adm : (p : Fin 2) → (pcfgs (F := F) p).Adm := fun p => (cfgs p).toPCfg_adm
/-- Each pipeline's proof data, at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
/-- No core owes another anything, so no semaphore is assigned a level. -/
abbrev noLevels : GSem nD τ sig → Finset Unit := fun _ => ∅
abbrev levelOf : GSem nD τ sig → Unit → ℕ := fun _ _ => 0
/-- What a core carries through every item beside its buffers: the generator register at some state, and that it
    owes nothing. -/
abbrev rides (c : Dev nD) : sProp 𝕄 := iprop((∃ r, prngReg c r) ∗ ∃ W, owes (c : Thread nD τ) (0 : CellTallies nD τ sig Unit) W)
/-- A host stretch as a segment: from every unscoped buffer at `W` to every unscoped buffer at what the stretch
    computes from `W`, `rides` unchanged. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

/-- Neither host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart: every unscoped buffer at `W4`, the generator register at some state. -/
abbrev lastState (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 as a segment: entered with every unscoped buffer at `W1`, left with them at the next boundary's
    contents. Its four arrays are split off the unscoped buffers at entry and joined back at exit; the generator
    register goes into the class invariant, which the region's own invariant starts from and ends at (the scratch's
    running sum is forgotten at the end); the core owes nothing; the kernel has no semaphore of its own. -/
def reg0 : Pipeline.RegionSeg (pcfgs (F := F)) adm (pdats m) () defs₀ Variants.none noLevels levelOf 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noLevels levelOf 0 fun _ _ => rfl
  pre c := iprop(StableHlo.held (c : Thread nD τ) (Pipeline.ucRefs τ sig) (W1 m c) ∗ rides c)
  post c := iprop(StableHlo.held (c : Thread nD τ) (Pipeline.ucRefs τ sig) (W2 m c) ∗ rides c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr
      · ipureintro; exact fun _ _ => Or.inl trivial
      iexact Howes
    isplitl [Hgen]; · iexact Hgen
    iexact Hrest
  hin c := by
    have h : (iprop(Pipeline.scopedRest spec0 c ∗ ∃ r, prngReg c r) : sProp 𝕄) ⊢ (dat0 (V1 m) c).Φ 0 := by
      have h' := hin0 (V1 m) c; unfold Pipeline.ΦA at h'; exact h'
    rw [show (pdats m 0 c).Φ 0 = (dat0 (V1 m) c).Φ 0 from rfl]
    iintro ⟨Hgen, -, Hsc⟩
    iapply h
    isplitl [Hsc]; · iexact Hsc
    iexact Hgen
  hout c := by
    have h : (dat0 (V1 m) c).Φ (Fin.last cfg0.N) ⊢ (iprop(Pipeline.scopedRest spec0 c ∗ ∃ r, prngReg c r) : sProp 𝕄) := by
      have h' := hout0 (V1 m) c; unfold Pipeline.ΦA at h'; exact h'
    rw [Pipeline.ownSems0_none, show (pdats m 0 c).Φ (Fin.last _) = (dat0 (V1 m) c).Φ (Fin.last cfg0.N) from rfl]
    iintro HΦ
    ihave Hcl := h $$ HΦ
    icases Hcl with ⟨Hsc, Hgen⟩
    isplitl [Hgen]; · iexact Hgen
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%W, -, Howes⟩; iexists W; iexact Howes

set_option backward.isDefEq.respectTransparency.types false in
/-- REGION 1 as a segment: entered with every unscoped buffer at `W3`, left with them at the next boundary's
    contents. Its four arrays are split off the unscoped buffers at entry and joined back at exit; the generator
    register goes into the class invariant, which the region's own invariant starts from and ends at (the scratch's
    running sum is forgotten at the end); the core owes nothing; the kernel has no semaphore of its own. -/
def reg1 : Pipeline.RegionSeg (pcfgs (F := F)) adm (pdats m) () defs₀ Variants.none noLevels levelOf 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noLevels levelOf 1 fun _ _ => rfl
  pre c := iprop(StableHlo.held (c : Thread nD τ) (Pipeline.ucRefs τ sig) (W3 m c) ∗ rides c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr
      · ipureintro; exact fun _ _ => Or.inl trivial
      iexact Howes
    isplitl [Hgen]; · iexact Hgen
    iexact Hrest
  hin c := by
    have h : (iprop(Pipeline.scopedRest spec1 c ∗ ∃ r, prngReg c r) : sProp 𝕄) ⊢ (dat1 (V3 m) c).Φ 0 := by
      have h' := hin1 (V3 m) c; unfold Pipeline.ΦA at h'; exact h'
    rw [show (pdats m 1 c).Φ 0 = (dat1 (V3 m) c).Φ 0 from rfl]
    iintro ⟨Hgen, -, Hsc⟩
    iapply h
    isplitl [Hsc]; · iexact Hsc
    iexact Hgen
  hout c := by
    have h : (dat1 (V3 m) c).Φ (Fin.last cfg1.N) ⊢ (iprop(Pipeline.scopedRest spec1 c ∗ ∃ r, prngReg c r) : sProp 𝕄) := by
      have h' := hout1 (V3 m) c; unfold Pipeline.ΦA at h'; exact h'
    rw [Pipeline.ownSems0_none, show (pdats m 1 c).Φ (Fin.last _) = (dat1 (V3 m) c).Φ (Fin.last cfg1.N) from rfl]
    iintro HΦ
    ihave Hcl := h $$ HΦ
    icases Hcl with ⟨Hsc, Hgen⟩
    isplitl [Hgen]; · iexact Hgen
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Harr, Howes, Hgen, Hrest⟩
    imodintro
    isplitl [Harr Hrest Hgen]
    · isplitl [Harr Hrest]
      · iapply hjoin; isplitl [Harr] <;> iassumption
      iexact Hgen
    unfold Pipeline.Dat.owesAt Pipeline.owesWithin
    icases Howes with ⟨%W, -, Howes⟩; iexists W; iexact Howes

/-! ## @main as its segments, and the launch -/

/-- @main's four items in order, each from its boundary's contents. -/
abbrev segs : List (Pipeline.Seg (pcfgs (F := F)) adm (pdats m) () defs₀ Variants.none noLevels levelOf) :=
  [ .host (hostSeg hostOps0 hostOps0_sub hostOps0_fresh (W0 m)),
    .region (reg0 m),
    .host (hostSeg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ Variants.none noLevels levelOf m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rides c)) (Tₙ := lastState m)
    (hch := ⟨fun _ => .rfl, fun _ => .rfl, fun _ => .rfl, fun _ => .rfl, fun _ => .rfl⟩)
    (hinit := by
      refine Pipeline.initEach noLevels levelOf fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The run with its result named: the result array ends at what region 1's write-backs leave, the arguments as
    launched. -/
theorem run_value : θ_run defs (onTc (τ := τ) (main (F := F))) ⟨m, fun _ => 0, ρ⟩ (fun r => ∀ c : Dev nD,
      r.2.mem ((c.tc : Thread nD τ).loc main_v5) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v5 (by decide))).trans (W4_main_v5 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.Layer

end
-- ==== Proof.Spec.lean ====
/-
  The specification: one graph-convolution layer on the extended reals, index by index.

  For an adjacency matrix A (16384 x 16384), projected features Y (16384 x d) and a bias row b (d entries),
  the layer's pre-activation at row r and column q is the row of A against the column of Y plus the bias,
      sum over k of A[r, k] * Y[k, q]  +  b[q],
  the first layer (d = 128) clamps it at zero from below, the second (d = 64) leaves it as it is.
  Both programs compute exactly these two functions, composed through the same small host matmuls.
-/
import Idealize.ShloMosaic.PureOps.Ideal
import Idealize.ShloMosaic.Lib.ValueIdx

noncomputable section

open scoped BigOperators

namespace Cert.Spec

open Idealize.ShloMosaic Idealize.ShloMosaic.ValueIdx

abbrev SNxN : Shape := ⟨2, ![16384, 16384]⟩
abbrev SNx128 : Shape := ⟨2, ![16384, 128]⟩
abbrev SNx64 : Shape := ⟨2, ![16384, 64]⟩

/-- Row `r` of the adjacency matrix against column `q` of the 128-wide features. -/
def rowdot128 (A : SNxN.Idx → EReal) (Y : SNx128.Idx → EReal) (r : Fin 16384) (q : Fin 128) : EReal :=
  ∑ k : Fin 16384, A (ix2 r k) * Y (ix2 k q)

/-- Row `r` of the adjacency matrix against column `q` of the 64-wide features. -/
def rowdot64 (A : SNxN.Idx → EReal) (Y : SNx64.Idx → EReal) (r : Fin 16384) (q : Fin 64) : EReal :=
  ∑ k : Fin 16384, A (ix2 r k) * Y (ix2 k q)

/-- The first layer at row `r`, column `q`: the bias added, clamped at zero from below. -/
def layer1At (A : SNxN.Idx → EReal) (Y : SNx128.Idx → EReal) (b : Fin 128 → EReal) (r : Fin 16384) (q : Fin 128) : EReal :=
  max (rowdot128 A Y r q + b q) 0

/-- The second layer at row `r`, column `q`: the bias added. -/
def layer2At (A : SNxN.Idx → EReal) (Y : SNx64.Idx → EReal) (b : Fin 64 → EReal) (r : Fin 16384) (q : Fin 64) : EReal :=
  rowdot64 A Y r q + b q

/-- The first layer as a function on the result array's indices. -/
def layer1 (A : SNxN.Idx → EReal) (Y : SNx128.Idx → EReal) (b : Fin 128 → EReal) : SNx128.Idx → EReal :=
  fun j => layer1At A Y b (j 0) (j 1)

/-- The second layer as a function on the result array's indices. -/
def layer2 (A : SNxN.Idx → EReal) (Y : SNx64.Idx → EReal) (b : Fin 64 → EReal) : SNx64.Idx → EReal :=
  fun j => layer2At A Y b (j 0) (j 1)

end Cert.Spec

end
-- ==== Proof.LibBlockSum.lean ====
/-
  Cutting a sum over the first a * b naturals into a consecutive blocks of b terms each.

  In a commutative additive monoid, for every f : ℕ → M,
      sum over n < a * b of f n  =  sum over j < a of the sum over k < b of f (b * j + k),
  by induction on the number of blocks: a sum over the first m + n naturals is the sum over the first m plus the
  sum of the next n, which splits the last block off. Only associativity and commutativity of the addition are
  used, so the law holds on the extended reals as it stands.
-/
import Mathlib.Algebra.BigOperators.Group.Finset.Basic

open scoped BigOperators

namespace Cert.LibBlockSum

/-- A sum over the first `a * b` naturals is the sum, block by block, of each block's `b` consecutive terms. -/
theorem sum_range_mul_blocks {M : Type*} [AddCommMonoid M] (f : ℕ → M) (a b : ℕ) :
    ∑ n ∈ Finset.range (a * b), f n = ∑ j ∈ Finset.range a, ∑ k ∈ Finset.range b, f (b * j + k) := by
  induction a with
  | zero => simp
  | succ a ih =>
    rw [Nat.add_mul, Nat.one_mul, Finset.sum_range_add, ih, Finset.sum_range_succ, Nat.mul_comm a b]

end Cert.LibBlockSum
-- ==== Proof.KI.Acc0.lean ====
/-
  Region 0 at the extended reals: the accumulator at the last point of a row block is the whole row sum.

  Point t = 8 i + k reads the adjacency block of rows 1024 i .. 1024 i + 1023 and columns 2048 k .. 2048 k + 2047,
  and the feature block of rows 2048 k .. 2048 k + 2047. The block product at (p, q) is the sum over the block's 2048
  contraction indices of A[1024 i + p, 2048 k + kk] * Y[2048 k + kk, q]; the accumulator starts at zero at k = 0 and
  adds one block product per point, so after k = 7 it holds the sum over all eight blocks, which is the sum over all
  16384 contraction indices: addition on the extended reals is associative and commutative, so the sum may be cut into
  blocks in any way, and zero is its neutral element.
-/
import proofs.«102359_j57853209477558_1_alg».proof.Proof.KI.Dat0
import proofs.«102359_j57853209477558_1_alg».proof.Proof.Spec
import proofs.«102359_j57853209477558_1_alg».proof.Proof.LibBlockSum
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-- The adjacency matrix, the projected features and the bias row as the region finds them, at their literal shapes. -/
abbrev adj0 (c : Dev nD) : Vec Ideal S16384x16384 .f32 := V c main_arg1
abbrev feat0 (c : Dev nD) : Vec Ideal S16384x128 .f32 := V c main_v0
abbrev bias0 (c : Dev nD) : Vec Ideal S1x128 .f32 := V c main_v1

/-! ## The two scratch payloads at an index

At the extended reals the format changes and the same-shape casts are the identity, an addition is the sum, and the
block product into a zero accumulator is the sum over the block's 2048 contraction indices of the products. -/

/-- The contraction of the block product: adjacency axis 1 against feature axis 0. -/
private abbrev D0 : DotDims S1024x2048 S2048x128 S1024x128 := dot_S1024x2048_S2048x128_S1024x128_1_0_0_1_n_n

private theorem D0_rank : D0.contr.rank = 1 := rfl
private theorem D0_size : D0.contr.size ⟨0, by rw [D0_rank]; exact Nat.one_pos⟩ = 2048 := rfl

/-- The left operand's index at output (p, q) and contraction position kk is (p, kk): axis 0 is the output's row, -/
private theorem lhs0_ax0 (j : S1024x128.Idx) (k : D0.contr.Idx) :
    ((dot_S1024x2048_S2048x128_S1024x128_1_0_0_1_n_n.lhsIdx j k 0 : Fin _) : ℕ) = (j 0 : ℕ) := by
  simp [DotDims.lhsIdx, dot_S1024x2048_S2048x128_S1024x128_1_0_0_1_n_n]; rfl
/-- axis 1 the contraction position; -/
private theorem lhs0_ax1 (j : S1024x128.Idx) (k : D0.contr.Idx) :
    ((dot_S1024x2048_S2048x128_S1024x128_1_0_0_1_n_n.lhsIdx j k 1 : Fin _) : ℕ) = (k ⟨0, by rw [D0_rank]; exact Nat.one_pos⟩ : ℕ) :=
  DotDims.lhsIdx_val_of_single dot_S1024x2048_S2048x128_S1024x128_1_0_0_1_n_n (cl := 1) rfl j k
/-- the right operand's is (kk, q): axis 0 the contraction position, -/
private theorem rhs0_ax0 (j : S1024x128.Idx) (k : D0.contr.Idx) :
    ((dot_S1024x2048_S2048x128_S1024x128_1_0_0_1_n_n.rhsIdx j k 0 : Fin _) : ℕ) = (k ⟨0, by rw [D0_rank]; exact Nat.one_pos⟩ : ℕ) :=
  DotDims.rhsIdx_val_of_single dot_S1024x2048_S2048x128_S1024x128_1_0_0_1_n_n (cr := 0) rfl j k
/-- axis 1 the output's column. -/
private theorem rhs0_ax1 (j : S1024x128.Idx) (k : D0.contr.Idx) :
    ((dot_S1024x2048_S2048x128_S1024x128_1_0_0_1_n_n.rhsIdx j k 1 : Fin _) : ℕ) = (j 1 : ℕ) := by
  simp [DotDims.rhsIdx, dot_S1024x2048_S2048x128_S1024x128_1_0_0_1_n_n]; rfl

/-- The zero payload is zero everywhere. -/
private theorem pay1_apply0 (p : Fin 1024) (q : Fin 128) : (k0_pay1 (F := Ideal)) (ix2 p q) = 0 := by
  unfold k0_pay1
  simp only [shapeCast_self]
  exact Ideal.ofBits_zero_f32

/-- The accumulating payload at (p, q): what the scratch held there plus the block product. -/
private theorem pay2_apply0 (x0 : Vec Ideal S1024x2048 .f32) (x1 : Vec Ideal S2048x128 .f32) (xs : Vec Ideal S1024x128 .f32)
    (p : Fin 1024) (q : Fin 128) :
    k0_pay2 x0 x1 xs (ix2 p q) = xs (ix2 p q) + ∑ kk : Fin 2048, x0 (ix2 p kk) * x1 (ix2 kk q) := by
  unfold k0_pay2
  simp only [shapeCast_self]
  refine (addf_apply _ _ _).trans ?_
  refine congrArg (xs (ix2 p q) + ·) ?_
  refine (Ideal.matmul_constant_zero_apply D0 none _ _ (ix2 p q)).trans ?_
  rw [← Equiv.sum_comp (contrEquiv1 D0 2048 D0_rank D0_size).symm]
  refine Finset.sum_congr rfl fun kk _ => ?_
  have ck := contrEquiv1_symm_val D0 2048 D0_rank D0_size kk
  refine congrArg₂ (· * ·) ?_ ?_
  · refine (truncf_apply (ψ := .bf16) x0 _ _).trans (congrArg x0 ?_)
    funext a; apply Fin.ext
    match a with
    | ⟨0, _⟩ => exact lhs0_ax0 _ _
    | ⟨1, _⟩ => exact (lhs0_ax1 _ _).trans ck
  · refine (truncf_apply (ψ := .bf16) x1 _ _).trans (congrArg x1 ?_)
    funext a; apply Fin.ext
    match a with
    | ⟨0, _⟩ => exact (rhs0_ax0 _ _).trans ck
    | ⟨1, _⟩ => exact rhs0_ax1 _ _

/-! ## The blocks a point reads, entry by entry

Point t = 8 i + k reads block (i, k) of the adjacency matrix and block (k, 0) of the features; an entry of a block
sits in its array at block index times block extent plus its place inside the block, axis by axis. -/

/-- The two windows' block indices at every point of the grid. -/
private theorem blk_index0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0 :=
  (by decide +kernel : ∀ t : Fin grid0.N, _)

private theorem val_lt0 (t : Fin cfg0.N) : t.val < 128 := lt_of_lt_of_eq t.isLt N_0

/-- Entry (p, kk) of the adjacency block of point t is entry (1024 (t / 8) + p, 2048 (t % 8) + kk) of the matrix. -/
private theorem ablk0_apply (c : Dev nD) (t : Fin cfg0.N) (p : Fin 1024) (kk : Fin 2048) :
    ablk0 V c t (ix2 p kk)
      = adj0 V c (ix2 (⟨1024 * (t.val / 8) + p.val, by have := val_lt0 t; have := p.isLt; omega⟩ : Fin 16384)
          (⟨2048 * (t.val % 8) + kk.val, by have := kk.isLt; omega⟩ : Fin 16384)) := by
  obtain ⟨e0, e1, -, -⟩ := blk_index0 t
  show V c main_arg1 (((cfg0.win 0).blk t).view.emb (ix2 p kk)) = V c main_arg1 _
  refine congrArg (V c main_arg1) ?_
  funext a; apply Fin.ext
  match a with
  | ⟨0, _⟩ => show win0_0.index t (0 : Fin 2) * 1024 + 1 * p.val = 1024 * (t.val / 8) + p.val; rw [e0]; omega
  | ⟨1, _⟩ => show win0_0.index t (1 : Fin 2) * 2048 + 1 * kk.val = 2048 * (t.val % 8) + kk.val; rw [e1]; omega

/-- Entry (kk, q) of the feature block of point t is entry (2048 (t % 8) + kk, q) of the features. -/
private theorem yblk0_apply (c : Dev nD) (t : Fin cfg0.N) (kk : Fin 2048) (q : Fin 128) :
    yblk0 V c t (ix2 kk q)
      = feat0 V c (ix2 (⟨2048 * (t.val % 8) + kk.val, by have := kk.isLt; omega⟩ : Fin 16384) q) := by
  obtain ⟨-, -, e0, e1⟩ := blk_index0 t
  show V c main_v0 (((cfg0.win 1).blk t).view.emb (ix2 kk q)) = V c main_v0 _
  refine congrArg (V c main_v0) ?_
  funext a; apply Fin.ext
  match a with
  | ⟨0, _⟩ => show win0_1.index t (0 : Fin 2) * 2048 + 1 * kk.val = 2048 * (t.val % 8) + kk.val; rw [e0]; omega
  | ⟨1, _⟩ => show win0_1.index t (1 : Fin 2) * 128 + 1 * q.val = q.val; rw [e1]; omega

/-! ## The running sum, point by point

The terms of row r against column q are read as one function on the naturals (zero past the matrix), so that the
block sums and the whole row sum are sums over ranges of naturals and re-indexing them is arithmetic on naturals. -/

section RowSum

variable (A : S16384x16384.Idx → EReal) (Y : S16384x128.Idx → EReal)

/-- Term n of row r of A against column q of Y; zero where r or n is past the matrix. -/
private def term0 (r : ℕ) (q : Fin 128) (n : ℕ) : EReal :=
  if h : r < 16384 ∧ n < 16384 then A (ix2 ⟨r, h.1⟩ ⟨n, h.2⟩) * Y (ix2 ⟨n, h.2⟩ q) else 0

/-- The whole row sum runs over the naturals below 8 * 2048. -/
private theorem rowdot_range0 (r : ℕ) (hr : r < 16384) (q : Fin 128) :
    Cert.Spec.rowdot128 A Y ⟨r, hr⟩ q = ∑ n ∈ Finset.range (8 * 2048), term0 A Y r q n := by
  show _ = ∑ n ∈ Finset.range 16384, term0 A Y r q n
  unfold Cert.Spec.rowdot128
  rw [← Fin.sum_univ_eq_sum_range (fun n => term0 A Y r q n) 16384]
  refine Finset.sum_congr rfl fun k _ => ?_
  unfold term0
  rw [dif_pos ⟨hr, k.isLt⟩]

end RowSum

/-- The block product of point t at (p, q) is contraction block t % 8 of row 1024 (t / 8) + p against column q. -/
private theorem blockprod0 (c : Dev nD) (t : Fin cfg0.N) (p : Fin 1024) (q : Fin 128) :
    ∑ kk : Fin 2048, ablk0 V c t (ix2 p kk) * yblk0 V c t (ix2 kk q)
      = ∑ kk ∈ Finset.range 2048, term0 (adj0 V c) (feat0 V c) (1024 * (t.val / 8) + p.val) q (2048 * (t.val % 8) + kk) := by
  rw [← Fin.sum_univ_eq_sum_range
    (fun kk => term0 (adj0 V c) (feat0 V c) (1024 * (t.val / 8) + p.val) q (2048 * (t.val % 8) + kk)) 2048]
  refine Finset.sum_congr rfl fun kk _ => ?_
  rw [ablk0_apply V c t p kk, yblk0_apply V c t kk q]
  unfold term0
  rw [dif_pos ⟨by have := val_lt0 t; have := p.isLt; omega, by have := kk.isLt; omega⟩]

/-- One point's step: the accumulating payload over the point's blocks adds that block of the row sum. -/
private theorem step0 (c : Dev nD) (t : Fin cfg0.N) (xs : Vec Ideal S1024x128 .f32) (p : Fin 1024) (q : Fin 128) :
    k0_pay2 (ablk0 V c t) (yblk0 V c t) xs (ix2 p q)
      = xs (ix2 p q) + ∑ kk ∈ Finset.range 2048,
          term0 (adj0 V c) (feat0 V c) (1024 * (t.val / 8) + p.val) q (2048 * (t.val % 8) + kk) :=
  (pay2_apply0 (ablk0 V c t) (yblk0 V c t) xs p q).trans (congrArg (xs (ix2 p q) + ·) (blockprod0 V c t p q))

/-- After point n the accumulator holds the first n % 8 + 1 contraction blocks of its row sums: by induction on the
    point, starting again from zero at the first point of every row block. -/
private theorem acc0_sum (c : Dev nD) (p : Fin 1024) (q : Fin 128) : ∀ (n : ℕ) (hn : n < cfg0.N),
    acc0 V c n hn (ix2 p q)
      = ∑ j ∈ Finset.range (n % 8 + 1), ∑ kk ∈ Finset.range 2048,
          term0 (adj0 V c) (feat0 V c) (1024 * (n / 8) + p.val) q (2048 * j + kk) := by
  have first : ∀ (n : ℕ) (hn : n < cfg0.N), n % 8 = 0 → acc0 V c n hn (ix2 p q)
      = ∑ j ∈ Finset.range (n % 8 + 1), ∑ kk ∈ Finset.range 2048,
          term0 (adj0 V c) (feat0 V c) (1024 * (n / 8) + p.val) q (2048 * j + kk) := by
    intro n hn h
    refine (congrFun (acc0_first V c ⟨n, hn⟩ h) (ix2 p q)).trans ?_
    refine (step0 V c ⟨n, hn⟩ (k0_pay1 (F := Ideal)) p q).trans ?_
    show (k0_pay1 (F := Ideal)) (ix2 p q) + ∑ kk ∈ Finset.range 2048,
        term0 (adj0 V c) (feat0 V c) (1024 * (n / 8) + p.val) q (2048 * (n % 8) + kk) = _
    rw [pay1_apply0, zero_add, h, Finset.sum_range_one]
  intro n
  induction n with
  | zero => exact fun hn => first 0 hn rfl
  | succ m ih =>
    intro hn
    by_cases h : (m + 1) % 8 = 0
    · exact first (m + 1) hn h
    · refine (congrFun (acc0_next V c ⟨m + 1, hn⟩ h) (ix2 p q)).trans ?_
      refine (step0 V c ⟨m + 1, hn⟩ _ p q).trans ?_
      show acc0 V c m (Nat.lt_of_succ_lt hn) (ix2 p q) + ∑ kk ∈ Finset.range 2048,
          term0 (adj0 V c) (feat0 V c) (1024 * ((m + 1) / 8) + p.val) q (2048 * ((m + 1) % 8) + kk) = _
      rw [ih (Nat.lt_of_succ_lt hn), Finset.sum_range_succ _ ((m + 1) % 8), show m / 8 = (m + 1) / 8 by omega,
        show m % 8 + 1 = (m + 1) % 8 by omega]

/-- After the last point of row block `t / 8` the accumulator at (p, q) is row `1024 (t / 8) + p` of the adjacency
    matrix against column `q` of the features. -/
theorem acc0_last (c : Dev nD) (t : Fin cfg0.N) (ht : t.val % 8 = 7) (p : Fin 1024) (q : Fin 128) :
    acc0 V c t.val t.isLt (ix2 p q)
      = Cert.Spec.rowdot128 (adj0 V c) (feat0 V c)
          ⟨1024 * (t.val / 8) + p.val, by have h : t.val < 128 := lt_of_lt_of_eq t.isLt N_0; have := p.isLt; omega⟩ q := by
  refine (acc0_sum V c p q t.val t.isLt).trans ?_
  rw [ht, rowdot_range0, Cert.LibBlockSum.sum_range_mul_blocks]

end Cert.KernelIdeal.Layer

end
-- ==== Proof.KI.Out0.lean ====
/-
  Region 0 at the extended reals: the result array after the region is the first layer.

  The result block of row block i is stored, and written back, at the last point of the row block only; there the body
  adds the bias row to the accumulator and clamps at zero. The sixteen blocks tile the result array, so the array after
  the region is, index by index, the first layer of the adjacency matrix, the features and the bias as the region found
  them.
-/
import proofs.«102359_j57853209477558_1_alg».proof.Proof.KI.Acc0

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-! ## The last point's payload at an index -/

/-- At (p, q) the payload is the accumulator's entry plus the bias row's entry q, clamped at zero from below: the
    bias row is broadcast along the rows (its unit axis reads coordinate 0), the sum and the maximum are entrywise,
    and the constant the maximum is taken against is the word of zero. -/
private theorem pay3_apply0 (x17 : Vec Ideal S1024x128 .f32) (x18 : Vec Ideal S1x128 .f32) (p : Fin 1024) (q : Fin 128) :
    k0_pay3 x17 x18 (ix2 p q) = max (x17 (ix2 p q) + x18 (ix2 0 q)) 0 := by
  unfold k0_pay3
  refine (maximumf_apply _ _ _).trans ?_
  refine congrArg₂ max ?_ ?_
  · refine (addf_apply _ _ _).trans ?_
    refine congrArg (x17 (ix2 p q) + ·) ?_
    refine (broadcastTo_apply _ _ _ (ix2 0 q) ?_).trans ?_
    · intro a
      match a with
      | ⟨0, _⟩ => rfl
      | ⟨1, _⟩ => rfl
    · rw [shapeCast_self]
  · exact (broadcast_apply _ _).trans Ideal.ofBits_zero_f32

/-! ## Where the blocks sit -/

/-- The bias window's block index is (0, 0) at every point: its block is the whole 1 x 128 array. -/
private theorem idx_facts0_2 : ∀ t : Fin cfg0.N, win0_2.index t 0 = 0 ∧ win0_2.index t 1 = 0 :=
  (by decide +kernel : ∀ t : Fin grid0.N, win0_2.index t 0 = 0 ∧ win0_2.index t 1 = 0)

/-- The result window's block index at point t = 8 i + k is (i, 0). -/
private theorem idx_facts0_3 : ∀ t : Fin cfg0.N, win0_3.index t 0 = t.val / 8 ∧ win0_3.index t 1 = 0 :=
  (by decide +kernel : ∀ t : Fin grid0.N, win0_3.index t 0 = t.val / 8 ∧ win0_3.index t 1 = 0)

/-- The bias block of any point, at (0, q), is the bias row's entry q. -/
private theorem bblk0_apply (c : Dev nD) (t : Fin cfg0.N) (q : Fin 128) :
    bblk0 V c t (ix2 0 q) = bias0 V c (ix2 0 q) := by
  obtain ⟨e0, e1⟩ := idx_facts0_2 t
  show V c main_v1 (((cfg0.win 2).blk t).view.emb (ix2 0 q)) = V c main_v1 (ix2 0 q)
  refine congrArg (V c main_v1) ?_
  funext a
  apply Fin.ext
  match a with
  | ⟨0, _⟩ => show win0_2.index t 0 * 1 + 1 * 0 = 0; omega
  | ⟨1, _⟩ => show win0_2.index t 1 * 128 + 1 * q.val = q.val; omega

/-! ## What a write-back writes -/

/-- At a point t with t % 8 = 7 the block written back is block t of the first layer: the block lies inside the array,
    so all of it is moved; its entry (p, q) sits at array index (1024 (t / 8) + p, q), where the accumulator holds the
    whole row sum, the bias block holds the bias row, and the payload adds the two and clamps at zero. -/
private theorem flushed0_3 (c : Dev nD) (t : Fin cfg0.N) (hf : (cfg0.win 3).flush t = true) :
    (dat0 V c).flushed 3 t
      = ((cfg0.win 3).blk t).view.read (Elt Ideal) (Cert.Spec.layer1 (adj0 V c) (feat0 V c) (fun q => bias0 V c (ix2 0 q))) := by
  have ht : t.val % 8 = 7 := (flush0_3 t).mp hf
  obtain ⟨e0, e1⟩ := idx_facts0_3 t
  show (cfg0.win 3).cut (grid0.coords t) ((dat0 V c).after 3 t) = _
  rw [after0_3]
  funext j
  have hp : (j 0).val < 1024 := (j 0).isLt
  have hq : (j 1).val < 128 := (j 1).isLt
  -- the moved part of the block is the block: an index of it is the pair of its two coordinates
  have hx : (cfg0.win 3).xinj (grid0.coords t) j = ix2 (⟨(j 0).val, hp⟩ : Fin 1024) (⟨(j 1).val, hq⟩ : Fin 128) := by
    funext a
    match a with
    | ⟨0, _⟩ => rfl
    | ⟨1, _⟩ => rfl
  show out0 V c t ((cfg0.win 3).xinj (grid0.coords t) j) = _
  rw [hx]
  unfold out0
  refine (pay3_apply0 _ _ _ _).trans ?_
  rw [acc0_last V c t ht, bblk0_apply]
  -- the array index under block entry j: row 1024 (t / 8) + j₀, column j₁
  rw [View.read_apply]
  show max _ 0 = Cert.Spec.layer1At (adj0 V c) (feat0 V c) (fun q => bias0 V c (ix2 0 q))
    (((cfg0.win 3).blk t).view.emb j 0) (((cfg0.win 3).blk t).view.emb j 1)
  have h0 : ((cfg0.win 3).blk t).view.emb j 0
      = (⟨1024 * (t.val / 8) + (j 0).val, by have h : t.val < 128 := lt_of_lt_of_eq t.isLt N_0; omega⟩ : Fin 16384) := by
    apply Fin.ext
    show win0_3.index t 0 * 1024 + 1 * (j 0).val = 1024 * (t.val / 8) + (j 0).val
    omega
  have h1 : ((cfg0.win 3).blk t).view.emb j 1 = (⟨(j 1).val, hq⟩ : Fin 128) := by
    apply Fin.ext
    show win0_3.index t 1 * 128 + 1 * (j 1).val = (j 1).val
    omega
  rw [h0, h1]
  rfl

/-! ## The sixteen blocks tile the array -/

/-- An index of the array is in point t's block iff each coordinate is in the block's range on its axis. -/
private theorem mem_blk0_3 (t : Fin cfg0.N) (i : S16384x128.Idx) :
    i ∈ ((cfg0.win 3).blk t).view.set
      ↔ ∀ a : Fin 2, win0_3.index t a * S1024x128.size a ≤ (i a).val
          ∧ (i a).val < win0_3.index t a * S1024x128.size a + S1024x128.size a := by
  show i ∈ ((View.whole main_v2).slice (win0_3.rect t)).set ↔ _
  rw [View.set_slice_whole, Rect.mem_set_unit]
  exact Iff.rfl

/-- Every index (r, q) of the array lies in the block of the write-back point 8 (r / 1024) + 7: rows
    1024 (r / 1024) .. 1024 (r / 1024) + 1023, all 128 columns. -/
private theorem cover0_3 (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 128 := N_0
  let t : Fin cfg0.N := ⟨8 * ((i 0).val / 1024) + 7, by rw [hN]; omega⟩
  have htv : t.val = 8 * ((i 0).val / 1024) + 7 := rfl
  obtain ⟨e0, e1⟩ := idx_facts0_3 t
  refine ⟨t, (flush0_3 t).mpr (by rw [htv]; omega), ?_⟩
  rw [mem_blk0_3]
  intro a
  match a with
  | ⟨0, _⟩ =>
    show win0_3.index t 0 * 1024 ≤ (i 0).val ∧ (i 0).val < win0_3.index t 0 * 1024 + 1024
    rw [e0, htv]; omega
  | ⟨1, _⟩ =>
    show win0_3.index t 1 * 128 ≤ (i 1).val ∧ (i 1).val < win0_3.index t 1 * 128 + 128
    rw [e1]; omega

/-- The result array after region 0 is the first layer of the arrays the region found. -/
theorem final0 (c : Dev nD) :
    (dat0 V c).arrAt 3 cfg0.N = Cert.Spec.layer1 (adj0 V c) (feat0 V c) (fun q => bias0 V c (ix2 0 q)) :=
  (dat0 V c).arrAt_eq_of_cover 3 _ (flushed0_3 V c) cover0_3

end Cert.KernelIdeal.Layer

end
-- ==== Proof.KI.Acc1.lean ====
/-
  Region 1 at the extended reals: the accumulator at the last point of a row block is the whole row sum.

  Point t = 8 i + k reads the adjacency block of rows 1024 i .. 1024 i + 1023 and columns 2048 k .. 2048 k + 2047,
  and the feature block of rows 2048 k .. 2048 k + 2047. The block product at (p, q) is the sum over the block's 2048
  contraction indices of A[1024 i + p, 2048 k + kk] * Y[2048 k + kk, q]; the accumulator starts at zero at k = 0 and
  adds one block product per point, so after k = 7 it holds the sum over all eight blocks, which is the sum over all
  16384 contraction indices: addition on the extended reals is associative and commutative, so the sum may be cut into
  blocks in any way, and zero is its neutral element.
-/
import proofs.«102359_j57853209477558_1_alg».proof.Proof.KI.Dat1
import proofs.«102359_j57853209477558_1_alg».proof.Proof.Spec
import proofs.«102359_j57853209477558_1_alg».proof.Proof.LibBlockSum
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-- The adjacency matrix, the projected features and the bias row as the region finds them, at their literal shapes. -/
abbrev adj1 (c : Dev nD) : Vec Ideal S16384x16384 .f32 := V c main_arg1
abbrev feat1 (c : Dev nD) : Vec Ideal S16384x64 .f32 := V c main_v3
abbrev bias1 (c : Dev nD) : Vec Ideal S1x64 .f32 := V c main_v4

/-! ## The two scratch payloads at an index

At the extended reals the format changes and the same-shape casts are the identity, an addition is the sum, and the
block product into a zero accumulator is the sum over the block's 2048 contraction indices of the products. -/

/-- The contraction of the block product: adjacency axis 1 against feature axis 0. -/
private abbrev D1 : DotDims S1024x2048 S2048x64 S1024x64 := dot_S1024x2048_S2048x64_S1024x64_1_0_0_1_n_n

private theorem D1_rank : D1.contr.rank = 1 := rfl
private theorem D1_size : D1.contr.size ⟨0, by rw [D1_rank]; exact Nat.one_pos⟩ = 2048 := rfl

/-- The left operand's index at output (p, q) and contraction position kk is (p, kk): axis 0 is the output's row, -/
private theorem lhs1_ax0 (j : S1024x64.Idx) (k : D1.contr.Idx) :
    ((dot_S1024x2048_S2048x64_S1024x64_1_0_0_1_n_n.lhsIdx j k 0 : Fin _) : ℕ) = (j 0 : ℕ) := by
  simp [DotDims.lhsIdx, dot_S1024x2048_S2048x64_S1024x64_1_0_0_1_n_n]; rfl
/-- axis 1 the contraction position; -/
private theorem lhs1_ax1 (j : S1024x64.Idx) (k : D1.contr.Idx) :
    ((dot_S1024x2048_S2048x64_S1024x64_1_0_0_1_n_n.lhsIdx j k 1 : Fin _) : ℕ) = (k ⟨0, by rw [D1_rank]; exact Nat.one_pos⟩ : ℕ) :=
  DotDims.lhsIdx_val_of_single dot_S1024x2048_S2048x64_S1024x64_1_0_0_1_n_n (cl := 1) rfl j k
/-- the right operand's is (kk, q): axis 0 the contraction position, -/
private theorem rhs1_ax0 (j : S1024x64.Idx) (k : D1.contr.Idx) :
    ((dot_S1024x2048_S2048x64_S1024x64_1_0_0_1_n_n.rhsIdx j k 0 : Fin _) : ℕ) = (k ⟨0, by rw [D1_rank]; exact Nat.one_pos⟩ : ℕ) :=
  DotDims.rhsIdx_val_of_single dot_S1024x2048_S2048x64_S1024x64_1_0_0_1_n_n (cr := 0) rfl j k
/-- axis 1 the output's column. -/
private theorem rhs1_ax1 (j : S1024x64.Idx) (k : D1.contr.Idx) :
    ((dot_S1024x2048_S2048x64_S1024x64_1_0_0_1_n_n.rhsIdx j k 1 : Fin _) : ℕ) = (j 1 : ℕ) := by
  simp [DotDims.rhsIdx, dot_S1024x2048_S2048x64_S1024x64_1_0_0_1_n_n]; rfl

/-- The zero payload is zero everywhere. -/
private theorem pay1_apply1 (p : Fin 1024) (q : Fin 64) : (k1_pay1 (F := Ideal)) (ix2 p q) = 0 := by
  unfold k1_pay1
  simp only [shapeCast_self]
  exact Ideal.ofBits_zero_f32

/-- The accumulating payload at (p, q): what the scratch held there plus the block product. -/
private theorem pay2_apply1 (x0 : Vec Ideal S1024x2048 .f32) (x1 : Vec Ideal S2048x64 .f32) (xs : Vec Ideal S1024x64 .f32)
    (p : Fin 1024) (q : Fin 64) :
    k1_pay2 x0 x1 xs (ix2 p q) = xs (ix2 p q) + ∑ kk : Fin 2048, x0 (ix2 p kk) * x1 (ix2 kk q) := by
  unfold k1_pay2
  simp only [shapeCast_self]
  refine (addf_apply _ _ _).trans ?_
  refine congrArg (xs (ix2 p q) + ·) ?_
  refine (Ideal.matmul_constant_zero_apply D1 none _ _ (ix2 p q)).trans ?_
  rw [← Equiv.sum_comp (contrEquiv1 D1 2048 D1_rank D1_size).symm]
  refine Finset.sum_congr rfl fun kk _ => ?_
  have ck := contrEquiv1_symm_val D1 2048 D1_rank D1_size kk
  refine congrArg₂ (· * ·) ?_ ?_
  · refine (truncf_apply (ψ := .bf16) x0 _ _).trans (congrArg x0 ?_)
    funext a; apply Fin.ext
    match a with
    | ⟨0, _⟩ => exact lhs1_ax0 _ _
    | ⟨1, _⟩ => exact (lhs1_ax1 _ _).trans ck
  · refine (truncf_apply (ψ := .bf16) x1 _ _).trans (congrArg x1 ?_)
    funext a; apply Fin.ext
    match a with
    | ⟨0, _⟩ => exact (rhs1_ax0 _ _).trans ck
    | ⟨1, _⟩ => exact rhs1_ax1 _ _

/-! ## The blocks a point reads, entry by entry

Point t = 8 i + k reads block (i, k) of the adjacency matrix and block (k, 0) of the features; an entry of a block
sits in its array at block index times block extent plus its place inside the block, axis by axis. -/

/-- The two windows' block indices at every point of the grid. -/
private theorem blk_index1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0 :=
  (by decide +kernel : ∀ t : Fin grid1.N, _)

private theorem val_lt1 (t : Fin cfg1.N) : t.val < 128 := lt_of_lt_of_eq t.isLt N_1

/-- Entry (p, kk) of the adjacency block of point t is entry (1024 (t / 8) + p, 2048 (t % 8) + kk) of the matrix. -/
private theorem ablk1_apply (c : Dev nD) (t : Fin cfg1.N) (p : Fin 1024) (kk : Fin 2048) :
    ablk1 V c t (ix2 p kk)
      = adj1 V c (ix2 (⟨1024 * (t.val / 8) + p.val, by have := val_lt1 t; have := p.isLt; omega⟩ : Fin 16384)
          (⟨2048 * (t.val % 8) + kk.val, by have := kk.isLt; omega⟩ : Fin 16384)) := by
  obtain ⟨e0, e1, -, -⟩ := blk_index1 t
  show V c main_arg1 (((cfg1.win 0).blk t).view.emb (ix2 p kk)) = V c main_arg1 _
  refine congrArg (V c main_arg1) ?_
  funext a; apply Fin.ext
  match a with
  | ⟨0, _⟩ => show win1_0.index t (0 : Fin 2) * 1024 + 1 * p.val = 1024 * (t.val / 8) + p.val; rw [e0]; omega
  | ⟨1, _⟩ => show win1_0.index t (1 : Fin 2) * 2048 + 1 * kk.val = 2048 * (t.val % 8) + kk.val; rw [e1]; omega

/-- Entry (kk, q) of the feature block of point t is entry (2048 (t % 8) + kk, q) of the features. -/
private theorem yblk1_apply (c : Dev nD) (t : Fin cfg1.N) (kk : Fin 2048) (q : Fin 64) :
    yblk1 V c t (ix2 kk q)
      = feat1 V c (ix2 (⟨2048 * (t.val % 8) + kk.val, by have := kk.isLt; omega⟩ : Fin 16384) q) := by
  obtain ⟨-, -, e0, e1⟩ := blk_index1 t
  show V c main_v3 (((cfg1.win 1).blk t).view.emb (ix2 kk q)) = V c main_v3 _
  refine congrArg (V c main_v3) ?_
  funext a; apply Fin.ext
  match a with
  | ⟨0, _⟩ => show win1_1.index t (0 : Fin 2) * 2048 + 1 * kk.val = 2048 * (t.val % 8) + kk.val; rw [e0]; omega
  | ⟨1, _⟩ => show win1_1.index t (1 : Fin 2) * 64 + 1 * q.val = q.val; rw [e1]; omega

/-! ## The running sum, point by point

The terms of row r against column q are read as one function on the naturals (zero past the matrix), so that the
block sums and the whole row sum are sums over ranges of naturals and re-indexing them is arithmetic on naturals. -/

section RowSum

variable (A : S16384x16384.Idx → EReal) (Y : S16384x64.Idx → EReal)

/-- Term n of row r of A against column q of Y; zero where r or n is past the matrix. -/
private def term1 (r : ℕ) (q : Fin 64) (n : ℕ) : EReal :=
  if h : r < 16384 ∧ n < 16384 then A (ix2 ⟨r, h.1⟩ ⟨n, h.2⟩) * Y (ix2 ⟨n, h.2⟩ q) else 0

/-- The whole row sum runs over the naturals below 8 * 2048. -/
private theorem rowdot_range1 (r : ℕ) (hr : r < 16384) (q : Fin 64) :
    Cert.Spec.rowdot64 A Y ⟨r, hr⟩ q = ∑ n ∈ Finset.range (8 * 2048), term1 A Y r q n := by
  show _ = ∑ n ∈ Finset.range 16384, term1 A Y r q n
  unfold Cert.Spec.rowdot64
  rw [← Fin.sum_univ_eq_sum_range (fun n => term1 A Y r q n) 16384]
  refine Finset.sum_congr rfl fun k _ => ?_
  unfold term1
  rw [dif_pos ⟨hr, k.isLt⟩]

end RowSum

/-- The block product of point t at (p, q) is contraction block t % 8 of row 1024 (t / 8) + p against column q. -/
private theorem blockprod1 (c : Dev nD) (t : Fin cfg1.N) (p : Fin 1024) (q : Fin 64) :
    ∑ kk : Fin 2048, ablk1 V c t (ix2 p kk) * yblk1 V c t (ix2 kk q)
      = ∑ kk ∈ Finset.range 2048, term1 (adj1 V c) (feat1 V c) (1024 * (t.val / 8) + p.val) q (2048 * (t.val % 8) + kk) := by
  rw [← Fin.sum_univ_eq_sum_range
    (fun kk => term1 (adj1 V c) (feat1 V c) (1024 * (t.val / 8) + p.val) q (2048 * (t.val % 8) + kk)) 2048]
  refine Finset.sum_congr rfl fun kk _ => ?_
  rw [ablk1_apply V c t p kk, yblk1_apply V c t kk q]
  unfold term1
  rw [dif_pos ⟨by have := val_lt1 t; have := p.isLt; omega, by have := kk.isLt; omega⟩]

/-- One point's step: the accumulating payload over the point's blocks adds that block of the row sum. -/
private theorem step1 (c : Dev nD) (t : Fin cfg1.N) (xs : Vec Ideal S1024x64 .f32) (p : Fin 1024) (q : Fin 64) :
    k1_pay2 (ablk1 V c t) (yblk1 V c t) xs (ix2 p q)
      = xs (ix2 p q) + ∑ kk ∈ Finset.range 2048,
          term1 (adj1 V c) (feat1 V c) (1024 * (t.val / 8) + p.val) q (2048 * (t.val % 8) + kk) :=
  (pay2_apply1 (ablk1 V c t) (yblk1 V c t) xs p q).trans (congrArg (xs (ix2 p q) + ·) (blockprod1 V c t p q))

/-- After point n the accumulator holds the first n % 8 + 1 contraction blocks of its row sums: by induction on the
    point, starting again from zero at the first point of every row block. -/
private theorem acc1_sum (c : Dev nD) (p : Fin 1024) (q : Fin 64) : ∀ (n : ℕ) (hn : n < cfg1.N),
    acc1 V c n hn (ix2 p q)
      = ∑ j ∈ Finset.range (n % 8 + 1), ∑ kk ∈ Finset.range 2048,
          term1 (adj1 V c) (feat1 V c) (1024 * (n / 8) + p.val) q (2048 * j + kk) := by
  have first : ∀ (n : ℕ) (hn : n < cfg1.N), n % 8 = 0 → acc1 V c n hn (ix2 p q)
      = ∑ j ∈ Finset.range (n % 8 + 1), ∑ kk ∈ Finset.range 2048,
          term1 (adj1 V c) (feat1 V c) (1024 * (n / 8) + p.val) q (2048 * j + kk) := by
    intro n hn h
    refine (congrFun (acc1_first V c ⟨n, hn⟩ h) (ix2 p q)).trans ?_
    refine (step1 V c ⟨n, hn⟩ (k1_pay1 (F := Ideal)) p q).trans ?_
    show (k1_pay1 (F := Ideal)) (ix2 p q) + ∑ kk ∈ Finset.range 2048,
        term1 (adj1 V c) (feat1 V c) (1024 * (n / 8) + p.val) q (2048 * (n % 8) + kk) = _
    rw [pay1_apply1, zero_add, h, Finset.sum_range_one]
  intro n
  induction n with
  | zero => exact fun hn => first 0 hn rfl
  | succ m ih =>
    intro hn
    by_cases h : (m + 1) % 8 = 0
    · exact first (m + 1) hn h
    · refine (congrFun (acc1_next V c ⟨m + 1, hn⟩ h) (ix2 p q)).trans ?_
      refine (step1 V c ⟨m + 1, hn⟩ _ p q).trans ?_
      show acc1 V c m (Nat.lt_of_succ_lt hn) (ix2 p q) + ∑ kk ∈ Finset.range 2048,
          term1 (adj1 V c) (feat1 V c) (1024 * ((m + 1) / 8) + p.val) q (2048 * ((m + 1) % 8) + kk) = _
      rw [ih (Nat.lt_of_succ_lt hn), Finset.sum_range_succ _ ((m + 1) % 8), show m / 8 = (m + 1) / 8 by omega,
        show m % 8 + 1 = (m + 1) % 8 by omega]

/-- After the last point of row block `t / 8` the accumulator at (p, q) is row `1024 (t / 8) + p` of the adjacency
    matrix against column `q` of the features. -/
theorem acc1_last (c : Dev nD) (t : Fin cfg1.N) (ht : t.val % 8 = 7) (p : Fin 1024) (q : Fin 64) :
    acc1 V c t.val t.isLt (ix2 p q)
      = Cert.Spec.rowdot64 (adj1 V c) (feat1 V c)
          ⟨1024 * (t.val / 8) + p.val, by have h : t.val < 128 := lt_of_lt_of_eq t.isLt N_1; have := p.isLt; omega⟩ q := by
  refine (acc1_sum V c p q t.val t.isLt).trans ?_
  rw [ht, rowdot_range1, Cert.LibBlockSum.sum_range_mul_blocks]

end Cert.KernelIdeal.Layer

end
-- ==== Proof.KI.Out1.lean ====
/-
  Region 1 at the extended reals: the result array after the region is the second layer.

  The result block of row block i is stored, and written back, at the last point of the row block only; there the body
  adds the bias row to the accumulator. The sixteen blocks tile the result array, so the array after
  the region is, index by index, the second layer of the adjacency matrix, the features and the bias as the region found
  them.
-/
import proofs.«102359_j57853209477558_1_alg».proof.Proof.KI.Acc1

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-! ## The last point's payload at an index -/

/-- At (p, q) the payload is the accumulator's entry plus the bias row's entry q: the bias row is broadcast along the
    rows (its unit axis reads coordinate 0) and the sum is entrywise. -/
private theorem pay3_apply1 (x17 : Vec Ideal S1024x64 .f32) (x18 : Vec Ideal S1x64 .f32) (p : Fin 1024) (q : Fin 64) :
    k1_pay3 x17 x18 (ix2 p q) = x17 (ix2 p q) + x18 (ix2 0 q) := by
  unfold k1_pay3
  refine (addf_apply _ _ _).trans ?_
  refine congrArg (x17 (ix2 p q) + ·) ?_
  refine (broadcastTo_apply _ _ _ (ix2 0 q) ?_).trans ?_
  · intro a
    match a with
    | ⟨0, _⟩ => rfl
    | ⟨1, _⟩ => rfl
  · rw [shapeCast_self]

/-! ## Where the blocks sit -/

/-- The bias window's block index is (0, 0) at every point: its block is the whole 1 x 64 array. -/
private theorem idx_facts1_2 : ∀ t : Fin cfg1.N, win1_2.index t 0 = 0 ∧ win1_2.index t 1 = 0 :=
  (by decide +kernel : ∀ t : Fin grid1.N, win1_2.index t 0 = 0 ∧ win1_2.index t 1 = 0)

/-- The result window's block index at point t = 8 i + k is (i, 0). -/
private theorem idx_facts1_3 : ∀ t : Fin cfg1.N, win1_3.index t 0 = t.val / 8 ∧ win1_3.index t 1 = 0 :=
  (by decide +kernel : ∀ t : Fin grid1.N, win1_3.index t 0 = t.val / 8 ∧ win1_3.index t 1 = 0)

/-- The bias block of any point, at (0, q), is the bias row's entry q. -/
private theorem bblk1_apply (c : Dev nD) (t : Fin cfg1.N) (q : Fin 64) :
    bblk1 V c t (ix2 0 q) = bias1 V c (ix2 0 q) := by
  obtain ⟨e0, e1⟩ := idx_facts1_2 t
  show V c main_v4 (((cfg1.win 2).blk t).view.emb (ix2 0 q)) = V c main_v4 (ix2 0 q)
  refine congrArg (V c main_v4) ?_
  funext a
  apply Fin.ext
  match a with
  | ⟨0, _⟩ => show win1_2.index t 0 * 1 + 1 * 0 = 0; omega
  | ⟨1, _⟩ => show win1_2.index t 1 * 64 + 1 * q.val = q.val; omega

/-! ## What a write-back writes -/

/-- At a point t with t % 8 = 7 the block written back is block t of the second layer: the block lies inside the
    array, so all of it is moved; its entry (p, q) sits at array index (1024 (t / 8) + p, q), where the accumulator
    holds the whole row sum, the bias block holds the bias row, and the payload adds the two. -/
private theorem flushed1_3 (c : Dev nD) (t : Fin cfg1.N) (hf : (cfg1.win 3).flush t = true) :
    (dat1 V c).flushed 3 t
      = ((cfg1.win 3).blk t).view.read (Elt Ideal) (Cert.Spec.layer2 (adj1 V c) (feat1 V c) (fun q => bias1 V c (ix2 0 q))) := by
  have ht : t.val % 8 = 7 := (flush1_3 t).mp hf
  obtain ⟨e0, e1⟩ := idx_facts1_3 t
  show (cfg1.win 3).cut (grid1.coords t) ((dat1 V c).after 3 t) = _
  rw [after1_3]
  funext j
  have hp : (j 0).val < 1024 := (j 0).isLt
  have hq : (j 1).val < 64 := (j 1).isLt
  -- the moved part of the block is the block: an index of it is the pair of its two coordinates
  have hx : (cfg1.win 3).xinj (grid1.coords t) j = ix2 (⟨(j 0).val, hp⟩ : Fin 1024) (⟨(j 1).val, hq⟩ : Fin 64) := by
    funext a
    match a with
    | ⟨0, _⟩ => rfl
    | ⟨1, _⟩ => rfl
  show out1 V c t ((cfg1.win 3).xinj (grid1.coords t) j) = _
  rw [hx]
  unfold out1
  refine (pay3_apply1 _ _ _ _).trans ?_
  rw [acc1_last V c t ht, bblk1_apply]
  -- the array index under block entry j: row 1024 (t / 8) + j₀, column j₁
  rw [View.read_apply]
  show _ + _ = Cert.Spec.layer2At (adj1 V c) (feat1 V c) (fun q => bias1 V c (ix2 0 q))
    (((cfg1.win 3).blk t).view.emb j 0) (((cfg1.win 3).blk t).view.emb j 1)
  have h0 : ((cfg1.win 3).blk t).view.emb j 0
      = (⟨1024 * (t.val / 8) + (j 0).val, by have h : t.val < 128 := lt_of_lt_of_eq t.isLt N_1; omega⟩ : Fin 16384) := by
    apply Fin.ext
    show win1_3.index t 0 * 1024 + 1 * (j 0).val = 1024 * (t.val / 8) + (j 0).val
    omega
  have h1 : ((cfg1.win 3).blk t).view.emb j 1 = (⟨(j 1).val, hq⟩ : Fin 64) := by
    apply Fin.ext
    show win1_3.index t 1 * 64 + 1 * (j 1).val = (j 1).val
    omega
  rw [h0, h1]
  rfl

/-! ## The sixteen blocks tile the array -/

/-- An index of the array is in point t's block iff each coordinate is in the block's range on its axis. -/
private theorem mem_blk1_3 (t : Fin cfg1.N) (i : S16384x64.Idx) :
    i ∈ ((cfg1.win 3).blk t).view.set
      ↔ ∀ a : Fin 2, win1_3.index t a * S1024x64.size a ≤ (i a).val
          ∧ (i a).val < win1_3.index t a * S1024x64.size a + S1024x64.size a := by
  show i ∈ ((View.whole main_v5).slice (win1_3.rect t)).set ↔ _
  rw [View.set_slice_whole, Rect.mem_set_unit]
  exact Iff.rfl

/-- Every index (r, q) of the array lies in the block of the write-back point 8 (r / 1024) + 7: rows
    1024 (r / 1024) .. 1024 (r / 1024) + 1023, all 64 columns. -/
private theorem cover1_3 (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  have hN : cfg1.N = 128 := N_1
  let t : Fin cfg1.N := ⟨8 * ((i 0).val / 1024) + 7, by rw [hN]; omega⟩
  have htv : t.val = 8 * ((i 0).val / 1024) + 7 := rfl
  obtain ⟨e0, e1⟩ := idx_facts1_3 t
  refine ⟨t, (flush1_3 t).mpr (by rw [htv]; omega), ?_⟩
  rw [mem_blk1_3]
  intro a
  match a with
  | ⟨0, _⟩ =>
    show win1_3.index t 0 * 1024 ≤ (i 0).val ∧ (i 0).val < win1_3.index t 0 * 1024 + 1024
    rw [e0, htv]; omega
  | ⟨1, _⟩ =>
    show win1_3.index t 1 * 64 ≤ (i 1).val ∧ (i 1).val < win1_3.index t 1 * 64 + 64
    rw [e1]; omega

/-- The result array after region 1 is the second layer of the arrays the region found. -/
theorem final1 (c : Dev nD) :
    (dat1 V c).arrAt 3 cfg1.N = Cert.Spec.layer2 (adj1 V c) (feat1 V c) (fun q => bias1 V c (ix2 0 q)) :=
  (dat1 V c).arrAt_eq_of_cover 3 _ (flushed1_3 V c) cover1_3

end Cert.KernelIdeal.Layer

end
-- ==== Proof.KI.Chain.lean ====
/-
  The idealized kernel program's result, read through the run's boundaries.

  Region 1's result array is the second layer of the arrays region 1 finds: the adjacency matrix as launched, the
  features the second host stretch computes (region 0's result times the second weight matrix) and the second bias as
  one row. Region 0's result array is the first layer of the arrays region 0 finds: the adjacency matrix as launched,
  the features the first host stretch computes (the inputs times the first weight matrix) and the first bias as one row.
  Composing the two gives the program's result as a function of the six argument arrays.
-/
import proofs.«102359_j57853209477558_1_alg».proof.Proof.KI.Run
import proofs.«102359_j57853209477558_1_alg».proof.Proof.KI.Out0
import proofs.«102359_j57853209477558_1_alg».proof.Proof.KI.Out1
import Idealize.ShloMosaic.Lib.StableHlo.Run
import Idealize.ShloMosaic.Lib.ValueLayout

set_option maxRecDepth 16384

noncomputable section

open scoped BigOperators

namespace Cert.KernelIdeal.Layer

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The six argument arrays as launched, at their literal shapes. -/
abbrev argX (c : Dev nD) : FVec Ideal S16384x128 .f32 := m ((c : Thread nD τ).loc main_arg0)
abbrev argA (c : Dev nD) : FVec Ideal S16384x16384 .f32 := m ((c : Thread nD τ).loc main_arg1)
abbrev argW1 (c : Dev nD) : FVec Ideal S128x128 .f32 := m ((c : Thread nD τ).loc main_arg2)
abbrev argB1 (c : Dev nD) : FVec Ideal S128 .f32 := m ((c : Thread nD τ).loc main_arg3)
abbrev argW2 (c : Dev nD) : FVec Ideal S128x64 .f32 := m ((c : Thread nD τ).loc main_arg4)
abbrev argB2 (c : Dev nD) : FVec Ideal S64 .f32 := m ((c : Thread nD τ).loc main_arg5)

/-- The hidden features: the first layer of the adjacency matrix, the projected inputs and the first bias. -/
def hidden (c : Dev nD) : FVec Ideal S16384x128 .f32 :=
  Cert.Spec.layer1 (argA m c) (Host.dotGeneral dot_S16384x128_S128x128_S16384x128_1_0_0_1_n_n none (argX m c) (argW1 m c))
    (fun q => argB1 m c (ix1 q))

/-! ## The buffers region 0 finds

The first host stretch writes the projected features and the bias row and nothing else: the adjacency matrix is as
launched, the features are the product of the inputs with the first weight matrix, the bias row is the bias vector
recast to one row. -/

/-- Region 0 finds the adjacency matrix as launched. -/
theorem entry0_adj (c : Dev nD) : V1 m c main_arg1 = argA m c := by
  show StableHlo.after hostOps0 (fun b => m (c, b)) (Proc.devRef .tc main_arg1) = _
  after_results

/-- Region 0 finds the inputs times the first weight matrix. -/
theorem entry0_feat (c : Dev nD) : V1 m c main_v0
    = Host.dotGeneral (F := Ideal) dot_S16384x128_S128x128_S16384x128_1_0_0_1_n_n none (argX m c) (argW1 m c) := by
  show StableHlo.after hostOps0 (fun b => m (c, b)) (Proc.devRef .tc main_v0) = _
  after_results

/-- Region 0 finds the first bias vector recast to one row. -/
theorem entry0_bias (c : Dev nD) : V1 m c main_v1 = shapeCast S1x128 (argB1 m c) shapeCasts_S128_S1x128 := by
  show StableHlo.after hostOps0 (fun b => m (c, b)) (Proc.devRef .tc main_v1) = _
  after_results
  rfl

/-- Region 0's result array at its exit is the hidden features. -/
theorem region0_result (c : Dev nD) : (dat0 (V1 m) c).arrAt 3 cfg0.N = hidden m c := by
  rw [final0]
  show Cert.Spec.layer1 (V1 m c main_arg1) (V1 m c main_v0) (fun q => V1 m c main_v1 (ix2 0 q)) = _
  rw [entry0_adj, entry0_feat, entry0_bias]
  unfold hidden
  congr 1
  funext q
  exact shapeCast_a_1a_apply _ _ 0 q

/-! ## The buffers at region 0's exit

Region 0's four arrays are at what its pipeline leaves (an input array as found, the result array at what the
write-backs leave); every other buffer is as region 0 found it. -/

/-- At region 0's exit array `w` holds what the pipeline leaves. -/
theorem exit0_at_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w

/-- At region 0's exit a buffer that is none of its arrays holds what it held at entry. -/
theorem exit0_at_other (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- The adjacency matrix is region 0's input array 0: still as launched at the exit. -/
theorem exit0_adj (c : Dev nD) : W2 m c (Proc.devRef .tc main_arg1) = argA m c :=
  (exit0_at_arr m c 0).trans ((((dat0 (V1 m) c).arrAt_in 0 rfl _).trans (A_eq0 (V1 m) c 0)).trans (entry0_adj m c))

/-- The result array at the exit is the hidden features. -/
theorem exit0_hidden (c : Dev nD) : W2 m c (Proc.devRef .tc main_v2) = hidden m c :=
  (exit0_at_arr m c 3).trans (region0_result m c)

/-- The second weight matrix is no array of region 0 and the first host stretch does not write it: as launched. -/
theorem exit0_w2 (c : Dev nD) : W2 m c (Proc.devRef .tc main_arg4) = argW2 m c := by
  rw [exit0_at_other m c main_arg4 (by decide)]
  show StableHlo.after hostOps0 (fun b => m (c, b)) (Proc.devRef .tc main_arg4) = _
  after_results

/-- The second bias vector likewise: as launched. -/
theorem exit0_b2 (c : Dev nD) : W2 m c (Proc.devRef .tc main_arg5) = argB2 m c := by
  rw [exit0_at_other m c main_arg5 (by decide)]
  show StableHlo.after hostOps0 (fun b => m (c, b)) (Proc.devRef .tc main_arg5) = _
  after_results

/-! ## The buffers region 1 finds

The second host stretch writes the projected hidden features and the second bias row and nothing else. -/

/-- Region 1 finds the adjacency matrix as launched. -/
theorem entry1_adj (c : Dev nD) : V3 m c main_arg1 = argA m c := by
  show StableHlo.after hostOps1 (W2 m c) (Proc.devRef .tc main_arg1) = _
  after_results
  exact exit0_adj m c

/-- Region 1 finds the hidden features times the second weight matrix. -/
theorem entry1_feat (c : Dev nD) : V3 m c main_v3
    = Host.dotGeneral (F := Ideal) dot_S16384x128_S128x64_S16384x64_1_0_0_1_n_n none (hidden m c) (argW2 m c) := by
  show StableHlo.after hostOps1 (W2 m c) (Proc.devRef .tc main_v3) = _
  after_results
  rw [exit0_hidden, exit0_w2]

/-- Region 1 finds the second bias vector recast to one row. -/
theorem entry1_bias (c : Dev nD) : V3 m c main_v4 = shapeCast S1x64 (argB2 m c) shapeCasts_S64_S1x64 := by
  show StableHlo.after hostOps1 (W2 m c) (Proc.devRef .tc main_v4) = _
  after_results
  rw [exit0_b2]
  rfl

/-- The program's result array at the end: the second layer of the adjacency matrix, the projected hidden features and
    the second bias. -/
theorem result_eq (c : Dev nD) :
    (dat1 (V3 m) c).arrAt 3 cfg1.N
      = Cert.Spec.layer2 (argA m c) (Host.dotGeneral dot_S16384x128_S128x64_S16384x64_1_0_0_1_n_n none (hidden m c) (argW2 m c))
          (fun q => argB2 m c (ix1 q)) := by
  rw [final1]
  show Cert.Spec.layer2 (V3 m c main_arg1) (V3 m c main_v3) (fun q => V3 m c main_v4 (ix2 0 q)) = _
  rw [entry1_adj, entry1_feat, entry1_bias]
  congr 1
  funext q
  exact shapeCast_a_1a_apply _ _ 0 q

end Cert.KernelIdeal.Layer

end
-- ==== Proof.RefValue.lean ====
/-
  The reference program at the extended reals: each of its two layers is the specification's layer.

  The reference computes a layer as the host's matrix product of the adjacency matrix with the projected features,
  plus the bias vector broadcast along the rows (first to one row, then to all 16384), and for the first layer the
  maximum with a zero array. Read at row r and column q this is the row of the adjacency matrix against the column of
  the features plus the bias entry q, clamped at zero in the first layer: the specification's two functions.
-/
import proofs.«102359_j57853209477558_1_alg».proof.Proof.Gen.ReferenceIdeal.Read
import proofs.«102359_j57853209477558_1_alg».proof.Proof.Spec

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.SL.Sem

/-! ## The matrix product read at an index

Each product contracts the left operand's axis 1 with the right operand's axis 0 and has no batch axis: at the result
index (r, q) and contraction index k the left operand is read at (r, k) and the right at (k, q). -/

/-- The 64-wide product at (r, q): row r of the left operand against column q of the right. -/
theorem dot64_apply (A : FVec Ideal S16384x16384 .f32) (Y : FVec Ideal S16384x64 .f32) (r : Fin 16384) (q : Fin 64) :
    Host.dotGeneral dot_S16384x16384_S16384x64_S16384x64_1_0_0_1_n_n none A Y (ix2 r q)
      = ∑ k : Fin 16384, A (ix2 r k) * Y (ix2 k q) := by
  simp only [Host.dotGeneral]
  rw [Ideal.dotGeneral_apply, ← Equiv.sum_comp (ValueIdx.contrEquiv1 dot_S16384x16384_S16384x64_S16384x64_1_0_0_1_n_n 16384 rfl rfl).symm]
  refine Finset.sum_congr rfl fun k _ => ?_
  have hk := ValueIdx.contrEquiv1_symm_val dot_S16384x16384_S16384x64_S16384x64_1_0_0_1_n_n 16384 rfl rfl k
  have el : dot_S16384x16384_S16384x64_S16384x64_1_0_0_1_n_n.lhsIdx (ix2 r q)
      ((ValueIdx.contrEquiv1 dot_S16384x16384_S16384x64_S16384x64_1_0_0_1_n_n 16384 rfl rfl).symm k) = ix2 r k :=
    funext fun a => Fin.ext (by
      match a with
      | ⟨0, _⟩ => exact Read.lhs_main_v7_0 _ _
      | ⟨1, _⟩ => exact (Read.lhs_main_v7_1 _ _).trans hk)
  have er : dot_S16384x16384_S16384x64_S16384x64_1_0_0_1_n_n.rhsIdx (ix2 r q)
      ((ValueIdx.contrEquiv1 dot_S16384x16384_S16384x64_S16384x64_1_0_0_1_n_n 16384 rfl rfl).symm k) = ix2 k q :=
    funext fun a => Fin.ext (by
      match a with
      | ⟨0, _⟩ => exact (Read.rhs_main_v7_0 _ _).trans hk
      | ⟨1, _⟩ => exact Read.rhs_main_v7_1 _ _)
  rw [el, er]

/-- The 128-wide product at (r, q): row r of the left operand against column q of the right. -/
theorem dot128_apply (A : FVec Ideal S16384x16384 .f32) (Y : FVec Ideal S16384x128 .f32) (r : Fin 16384) (q : Fin 128) :
    Host.dotGeneral dot_S16384x16384_S16384x128_S16384x128_1_0_0_1_n_n none A Y (ix2 r q)
      = ∑ k : Fin 16384, A (ix2 r k) * Y (ix2 k q) := by
  simp only [Host.dotGeneral]
  rw [Ideal.dotGeneral_apply, ← Equiv.sum_comp (ValueIdx.contrEquiv1 dot_S16384x16384_S16384x128_S16384x128_1_0_0_1_n_n 16384 rfl rfl).symm]
  refine Finset.sum_congr rfl fun k _ => ?_
  have hk := ValueIdx.contrEquiv1_symm_val dot_S16384x16384_S16384x128_S16384x128_1_0_0_1_n_n 16384 rfl rfl k
  have el : dot_S16384x16384_S16384x128_S16384x128_1_0_0_1_n_n.lhsIdx (ix2 r q)
      ((ValueIdx.contrEquiv1 dot_S16384x16384_S16384x128_S16384x128_1_0_0_1_n_n 16384 rfl rfl).symm k) = ix2 r k :=
    funext fun a => Fin.ext (by
      match a with
      | ⟨0, _⟩ => exact Read.lhs_main_v1_0 _ _
      | ⟨1, _⟩ => exact (Read.lhs_main_v1_1 _ _).trans hk)
  have er : dot_S16384x16384_S16384x128_S16384x128_1_0_0_1_n_n.rhsIdx (ix2 r q)
      ((ValueIdx.contrEquiv1 dot_S16384x16384_S16384x128_S16384x128_1_0_0_1_n_n 16384 rfl rfl).symm k) = ix2 k q :=
    funext fun a => Fin.ext (by
      match a with
      | ⟨0, _⟩ => exact (Read.rhs_main_v1_0 _ _).trans hk
      | ⟨1, _⟩ => exact Read.rhs_main_v1_1 _ _)
  rw [el, er]

/-! ## The bias read at an index

The bias vector becomes one row (its entries along axis 1), and the row is repeated along axis 0: neither step looks
at the row coordinate, so the value at (r, q) is the vector's entry q. -/

/-- The 64-entry bias, broadcast to one row and then to all rows, read at (r, q) is its entry q. -/
theorem bias64_apply (b : FVec Ideal S64 .f32) (r : Fin 16384) (q : Fin 64) :
    broadcastInDim S16384x64 ![0, 1] bcast_S1x64_S16384x64_0_1 (broadcastInDim S1x64 ![1] bcast_S64_S1x64_1 b) (ix2 r q)
      = b (ix1 q) := by
  rw [broadcastInDim_apply _ bcast_S1x64_S16384x64_0_1 _ (ix2 r q) (ix2 (⟨0, Nat.one_pos⟩ : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]
  exact broadcastInDim_apply _ bcast_S64_S1x64_1 b (ix2 (⟨0, Nat.one_pos⟩ : Fin 1) q) (ix1 q) (fun a => match a with
    | ⟨0, _⟩ => by show q.val = if (64 : Nat) = 1 then 0 else q.val; rw [if_neg (by decide)])

/-- The 128-entry bias, broadcast to one row and then to all rows, read at (r, q) is its entry q. -/
theorem bias128_apply (b : FVec Ideal S128 .f32) (r : Fin 16384) (q : Fin 128) :
    broadcastInDim S16384x128 ![0, 1] bcast_S1x128_S16384x128_0_1 (broadcastInDim S1x128 ![1] bcast_S128_S1x128_1 b) (ix2 r q)
      = b (ix1 q) := by
  rw [broadcastInDim_apply _ bcast_S1x128_S16384x128_0_1 _ (ix2 r q) (ix2 (⟨0, Nat.one_pos⟩ : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  exact broadcastInDim_apply _ bcast_S128_S1x128_1 b (ix2 (⟨0, Nat.one_pos⟩ : Fin 1) q) (ix1 q) (fun a => match a with
    | ⟨0, _⟩ => by show q.val = if (128 : Nat) = 1 then 0 else q.val; rw [if_neg (by decide)])

/-- The zero scalar broadcast to the whole array reads as the extended real 0 everywhere. -/
theorem zeros128_apply (j : S16384x128.Idx) :
    broadcastInDim S16384x128 ![] bcast_S_S16384x128 (constant (F := Ideal) S_ .f32 0x00000000#32) j = (0 : EReal) := by
  rw [broadcastInDim_apply _ bcast_S_S16384x128 _ j (fun a => a.elim0) (fun a => a.elim0), constant_apply,
    Ideal.ofBits_zero_f32]

/-! ## The two layers -/

/-- The reference's first layer, for any features `Y`, is the specification's. -/
theorem ref_layer1 (A : FVec Ideal S16384x16384 .f32) (Y : FVec Ideal S16384x128 .f32) (b : FVec Ideal S128 .f32) :
    maximumf (addf (Host.dotGeneral dot_S16384x16384_S16384x128_S16384x128_1_0_0_1_n_n none A Y)
        (broadcastInDim S16384x128 ![0, 1] bcast_S1x128_S16384x128_0_1 (broadcastInDim S1x128 ![1] bcast_S128_S1x128_1 b)))
      (broadcastInDim S16384x128 ![] bcast_S_S16384x128 (constant (F := Ideal) S_ .f32 0x00000000#32))
      = Cert.Spec.layer1 A Y (fun q => b (ix1 q)) := by
  funext j
  obtain ⟨r, q, rfl⟩ : ∃ (r : Fin 16384) (q : Fin 128), j = ix2 r q := ⟨j 0, j 1, eq_ix2 j⟩
  -- elementwise: the maximum of (product + bias) and the zero array, each read at (r, q)
  show FloatOps.maximumf (FloatOps.addf _ _) _ = _
  rw [Ideal.maximumf_def, Ideal.addf_def, dot128_apply, bias128_apply, zeros128_apply]
  rfl

/-- The reference's second layer, for any features `Y`, is the specification's. -/
theorem ref_layer2 (A : FVec Ideal S16384x16384 .f32) (Y : FVec Ideal S16384x64 .f32) (b : FVec Ideal S64 .f32) :
    addf (Host.dotGeneral dot_S16384x16384_S16384x64_S16384x64_1_0_0_1_n_n none A Y)
        (broadcastInDim S16384x64 ![0, 1] bcast_S1x64_S16384x64_0_1 (broadcastInDim S1x64 ![1] bcast_S64_S1x64_1 b))
      = Cert.Spec.layer2 A Y (fun q => b (ix1 q)) := by
  funext j
  obtain ⟨r, q, rfl⟩ : ∃ (r : Fin 16384) (q : Fin 64), j = ix2 r q := ⟨j 0, j 1, eq_ix2 j⟩
  -- elementwise: product + bias, each read at (r, q)
  show FloatOps.addf _ _ = _
  rw [Ideal.addf_def, dot64_apply, bias64_apply]
  rfl

end Cert.ReferenceIdeal.RefValue

end
-- ==== Proof.lean ====
/-
  A two-layer graph convolution: a kernel that streams the adjacency matrix block by block against a plain reference.

  Both programs compute, for an adjacency matrix A, inputs X, weights W1, W2 and biases b1, b2,
      H = max (A (X W1) + b1) 0,        OUT = A (H W2) + b2,
  with the two small products X W1 and H W2 done by the same host matrix product in both. The kernel computes each
  layer's product A Y in a pipelined call over a 16 x 8 grid: row block i of A (1024 rows) against contraction block k
  (2048 columns), the block products added into a scratch accumulator that is zeroed at k = 0; at k = 7 the bias row is
  added (and, in the first layer, the result clamped at zero) and the block written back. On the extended reals a change
  of float format is the identity and a matrix product is the plain sum over the contraction index, so the accumulator
  after the eight blocks is the sum over all 16384 indices cut into eight consecutive blocks: addition is associative and
  commutative there and zero is neutral, so this is the reference's sum. No other law is needed, and the inputs'
  finiteness is not used.

    frame_Kernel, frame_KernelIdeal: the run of @main through its two regions (Proof/K, Proof/KI): every region's body
      at every grid point, the accumulator carried in the region invariant, the argument arrays written by no item.
    frame_ReferenceIdeal: the reference's run, its result dropped.
    preserves_Kernel_KernelIdeal: the ideal pass rewrote nothing.
    algebraic_KernelIdeal_ReferenceIdeal: the kernel's result array is the second layer of the first (Proof/KI/Chain),
      the reference's term is the same two functions (Proof/RefValue), from memories that agree on the arguments.
-/
import proofs.«102359_j57853209477558_1_alg».proof.Defs
import proofs.«102359_j57853209477558_1_alg».proof.Proof.Gen.Kernel
import proofs.«102359_j57853209477558_1_alg».proof.Proof.Gen.KernelIdeal
import proofs.«102359_j57853209477558_1_alg».proof.Proof.Gen.ReferenceIdeal
import proofs.«102359_j57853209477558_1_alg».proof.Proof.Gen.Pre_finite_inputs
import proofs.«102359_j57853209477558_1_alg».proof.Proof.Gen.ReferenceIdeal.Run
import proofs.«102359_j57853209477558_1_alg».proof.Proof.K.Run
import proofs.«102359_j57853209477558_1_alg».proof.Proof.KI.Chain
import proofs.«102359_j57853209477558_1_alg».proof.Proof.RefValue

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel := fun m ρ _ => Cert.Kernel.Layer.frame (F := Bits) m ρ

/-- So does the idealized one. -/
theorem frame_ki : Cert.frame_KernelIdeal := fun m ρ _ => Cert.KernelIdeal.Layer.frame (F := Ideal) m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the six arguments both programs end with the second layer of the first layer of
    those arguments. -/
theorem algebraic : Cert.algebraic_KernelIdeal_ReferenceIdeal := by
  intro m ρ m' ρ' _ hagree
  refine ⟨fun c => Cert.Spec.layer2 (Cert.KernelIdeal.Layer.argA m c)
      (Host.dotGeneral Cert.KernelIdeal.dot_S16384x128_S128x64_S16384x64_1_0_0_1_n_n none (Cert.KernelIdeal.Layer.hidden m c) (Cert.KernelIdeal.Layer.argW2 m c))
      (fun q => Cert.KernelIdeal.Layer.argB2 m c (ix1 q)), ?_, ?_⟩
  · exact (θ_run Cert.KernelIdeal.defs _ _).mono
      (fun _ h c => ⟨(h c).1.trans (Cert.KernelIdeal.Layer.result_eq m c), (h c).2⟩)
      (Cert.KernelIdeal.Layer.run_value (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    rw [Cert.ReferenceIdeal.RefValue.ref_layer1, Cert.ReferenceIdeal.RefValue.ref_layer2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
